-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S100000x128 : Shape := ⟨2, ![100000, 128]⟩
abbrev S50000x4 : Shape := ⟨2, ![50000, 4]⟩
abbrev S1600000 : Shape := ⟨1, ![1600000]⟩
abbrev S128x3 : Shape := ⟨2, ![128, 3]⟩
abbrev S128 : Shape := ⟨1, ![128]⟩
abbrev S128x128 : Shape := ⟨2, ![128, 128]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S50000x4 : S_.BroadcastsInDim S50000x4 (![] : Fin 0 → Fin S50000x4.rank)
  reducesTo_S50000x4_S_d0_1 : S50000x4.ReducesTo [0, 1] S_
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x4 .f32) (main_arg1 : FVec F S100000x128 .f32) (main_arg2 : FVec F S50000x4 .f32) (main_arg3 : IVec S1600000 32) (main_arg4 : IVec S1600000 32) (main_arg5 : FVec F S128x3 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S50000x4 .f32 := Host.absf main_arg2
  let main_cst_2 : FVec F S_ .f32 := constant S_ .f32 0x7F800000#32
  let main_v10 : FVec F S50000x4 .f32 := broadcastInDim S50000x4 ![] bcast_S_S50000x4 main_cst_2
  let main_v11 : IVec S50000x4 1 := cmpf .olt main_v9 main_v10
  let main_c_3 : IVec S_ 1 := constantI S_ 1 1#1
  let main_v12 : IVec S_ 1 := (fun x v => Host.reduce IntOp.andi x v reducesTo_S50000x4_S_d0_1 h_S_) main_v11 main_c_3
  let main_v13 : IVec S_ 1 := andi main_v8 main_v12
  let main_v14 : FVec F S128x3 .f32 := Host.absf main_arg5
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_arg6 main_arg7 main_arg8 main_arg9 main_arg10 main_v13 main_v16
-- ==== Kernel.lean ====
abbrev S100000x4 : Shape := ⟨2, ![100000, 4]⟩
abbrev S100000x128 : Shape := ⟨2, ![100000, 128]⟩
abbrev S50000x4 : Shape := ⟨2, ![50000, 4]⟩
abbrev S1600000 : Shape := ⟨1, ![1600000]⟩
abbrev S128x3 : Shape := ⟨2, ![128, 3]⟩
abbrev S128 : Shape := ⟨1, ![128]⟩
abbrev S128x128 : Shape := ⟨2, ![128, 128]⟩
abbrev S3x128 : Shape := ⟨2, ![3, 128]⟩
abbrev S1x128 : Shape := ⟨2, ![1, 128]⟩
abbrev S5000x4 : Shape := ⟨2, ![5000, 4]⟩
abbrev S5000x128 : Shape := ⟨2, ![5000, 128]⟩
abbrev S5000x3 : Shape := ⟨2, ![5000, 3]⟩
abbrev S50000x128 : Shape := ⟨2, ![50000, 128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S5000x1 : Shape := ⟨2, ![5000, 1]⟩

abbrev nBuf : Space → Nat
  | .hbm => 43
  | .vmem => 33
  | .smem => 0
  | _ => 0

abbrev bufTy : (tb : Table) → Fin (tcTables nBuf tb) → BufTy
  | .hbm, ⟨0, _⟩ => ⟨S100000x4, .f32⟩
  | .hbm, ⟨1, _⟩ => ⟨S100000x128, .f32⟩
  | .hbm, ⟨2, _⟩ => ⟨S50000x4, .f32⟩
  | .hbm, ⟨3, _⟩ => ⟨S1600000, .i32⟩
  | .hbm, ⟨4, _⟩ => ⟨S1600000, .i32⟩
  | .hbm, ⟨5, _⟩ => ⟨S128x3, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S3x128, .f32⟩
  | .hbm, ⟨12, _⟩ => ⟨S128x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S100000x128, .f32⟩
  | .hbm, ⟨18, _⟩ => ⟨S50000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S50000x128, .f32⟩
  | .hbm, ⟨30, _⟩ => ⟨S1600000x1, .i32⟩
  | .hbm, ⟨31, _⟩ => ⟨S50000x128, .f32⟩
  | .hbm, ⟨32, _⟩ => ⟨S_, .f32⟩
  | .hbm, ⟨33, _⟩ => ⟨S1600000, .f32⟩
  | .hbm, ⟨34, _⟩ => ⟨S_, .f32⟩
  | .hbm, ⟨35, _⟩ => ⟨S50000, .f32⟩
  | .hbm, ⟨36, _⟩ => ⟨S1600000x1, .i32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S1x128, .f32⟩
  | .hbm, ⟨41, _⟩ => ⟨S1x128, .f32⟩
  | .hbm, ⟨42, _⟩ => ⟨S50000x128, .f32⟩
  | .local _ .vmem, ⟨0, _⟩ => ⟨S5000x4, .f32⟩
  | .local _ .vmem, ⟨1, _⟩ => ⟨S5000x4, .f32⟩
  | .local _ .vmem, ⟨2, _⟩ => ⟨S5000x128, .f32⟩
  | .local _ .vmem, ⟨3, _⟩ => ⟨S5000x128, .f32⟩
  | .local _ .vmem, ⟨4, _⟩ => ⟨S3x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x4, .f32⟩
  | .local _ .vmem, ⟨11, _⟩ => ⟨S5000x4, .f32⟩
  | .local _ .vmem, ⟨12, _⟩ => ⟨S3x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  transposes_S128x3_S3x128_1_0 : S128x3.Transposes [1, 0] S3x128
  transposes_S128x128_S128x128_1_0 : S128x128.Transposes [1, 0] S128x128
  shapeCasts_S128_S1x128 : S128.ShapeCasts S1x128
  inb_S5000x4_S5000x3_0_1 : ∀ a, (![0, 1] : Fin 2 → Nat) a + S5000x3.size a ≤ S5000x4.size a
  h_S5000x3 : 0 < S5000x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  reduces_S5000x128_S128 : S5000x128.Reduces [0] S128
  dot_S5000x3_S3x128_S5000x128_1_0_0_1_n_n_wf : DotDims.WF S5000x3 S3x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x4.size a ≤ S50000x4.size a
  hwx1_0 : ∀ i : grid1.Coords, EltTy.bits .f32 = 32 ∨ (Rect.block (s := S50000x4) S5000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128.size a ≤ S3x128.size a
  hwx1_1 : ∀ i : grid1.Coords, EltTy.bits .f32 = 32 ∨ (Rect.block (s := S3x128) S3x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S5000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S3x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v23_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v23_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23_1) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23_2) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v5) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v24) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x4 : Shape := ⟨2, ![100000, 4]⟩
abbrev S100000x128 : Shape := ⟨2, ![100000, 128]⟩
abbrev S50000x4 : Shape := ⟨2, ![50000, 4]⟩
abbrev S1600000 : Shape := ⟨1, ![1600000]⟩
abbrev S128x3 : Shape := ⟨2, ![128, 3]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x4 : Shape := ⟨2, ![1600000, 4]⟩
abbrev S1600000x3 : Shape := ⟨2, ![1600000, 3]⟩
abbrev S3x128 : Shape := ⟨2, ![3, 128]⟩
abbrev S1600000x128 : Shape := ⟨2, ![1600000, 128]⟩
abbrev S1x128 : Shape := ⟨2, ![1, 128]⟩
abbrev S50000x128 : Shape := ⟨2, ![50000, 128]⟩
abbrev S50000 : Shape := ⟨1, ![50000]⟩
abbrev S50000x1 : Shape := ⟨2, ![50000, 1]⟩

abbrev nBuf : Space → Nat
  | .hbm => 100
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S100000x128, .f32⟩
  | .hbm, ⟨2, _⟩ => ⟨S50000x4, .f32⟩
  | .hbm, ⟨3, _⟩ => ⟨S1600000, .i32⟩
  | .hbm, ⟨4, _⟩ => ⟨S1600000, .i32⟩
  | .hbm, ⟨5, _⟩ => ⟨S128x3, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x4, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x4, .f32⟩
  | .hbm, ⟨29, _⟩ => ⟨S1600000x4, .f32⟩
  | .hbm, ⟨30, _⟩ => ⟨S1600000x3, .f32⟩
  | .hbm, ⟨31, _⟩ => ⟨S3x128, .f32⟩
  | .hbm, ⟨32, _⟩ => ⟨S1600000x128, .f32⟩
  | .hbm, ⟨33, _⟩ => ⟨S1x128, .f32⟩
  | .hbm, ⟨34, _⟩ => ⟨S1600000x128, .f32⟩
  | .hbm, ⟨35, _⟩ => ⟨S1600000x128, .f32⟩
  | .hbm, ⟨36, _⟩ => ⟨S128x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S50000x128, .f32⟩
  | .hbm, ⟨53, _⟩ => ⟨S1600000x1, .i32⟩
  | .hbm, ⟨54, _⟩ => ⟨S50000x128, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S50000, .f32⟩
  | .hbm, ⟨59, _⟩ => ⟨S1600000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call0_cst : Ref sig .tc := ⟨.hbm, 97, rfl⟩
abbrev main_call0_v0 : Ref sig .tc := ⟨.hbm, 98, rfl⟩
abbrev main_v71 : Ref sig .tc := ⟨.hbm, 99, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1600000x4_S1600000x3_0_1 : S1600000x4.Slices ![0, 1] S1600000x3
  transposes_S128x3_S3x128_1_0 : S128x3.Transposes [1, 0] S3x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  transposes_S128x128_S128x128_1_0 : S128x128.Transposes [1, 0] S128x128
  bcast_S1x128_S100000x128_0_1 : S1x128.BroadcastsInDim S100000x128 (![0, 1] : Fin 2 → Fin S100000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S1x128_S50000x128_0_1 : S1x128.BroadcastsInDim S50000x128 (![0, 1] : Fin 2 → Fin S50000x128.rank)
  gather_S100000x4_S1600000x1_S1600000x4_1_0_n_n_0_1_14_wf : GatherDims.WF S100000x4 S1600000x1 S1600000x4 [1] [0] [] [0] [] 1 ![1, 4]
  gather_S50000x4_S1600000x1_S1600000x4_1_0_n_n_0_1_14_wf : GatherDims.WF S50000x4 S1600000x1 S1600000x4 [1] [0] [] [0] [] 1 ![1, 4]
  dot_S1600000x3_S3x128_S1600000x128_1_0_0_1_n_n_wf : DotDims.WF S1600000x3 S3x128 S1600000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def dot_S1600000x3_S3x128_S1600000x128_1_0_0_1_n_n : DotDims S1600000x3 S3x128 S1600000x128 where
  lhsContracting := [1]
  rhsContracting := [0]
  lhsNonContracting := [0]
  rhsNonContracting := [1]
  lhsBatch := []
  rhsBatch := []
  wf := dot_S1600000x3_S3x128_S1600000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

class Facts : Prop extends Facts₀ where

variable [Facts]
-- ==== Proof.Spec.lean ====
/-
  The two programs' results as functions of the argument arrays, index by index, over the extended reals.

  Points: `N = 100000` reference points with a 4-column position row (column 0 is a batch tag, columns 1..3 the
  coordinates) and a 128-column feature row; `M = 50000` query points with a 4-column position row; `E = 1600000`
  edges, edge `e` joining reference point `e_ref[e]` to query point `e_query[e]`.  A table row is looked up at a
  word read signed, a negative word first moved up by the table's length, then clipped into the table
  (`rowOf`); an edge is summed into the query row its word names when read signed and left alone (`seg`), and
  into none when that is outside `[0, M)`.

  The fused program forms, per reference point, `pos·W_posᵀ + feat·W_mlpᵀ + b_pos + b_mlp` (`combinedRef`), sums
  its looked-up rows per query (`segSumK`), divides by the clamped count and takes `min(count, 1)` times the query's
  own `pos·W_posᵀ` off (`featK`).  The plain program forms per edge `(ref_pos − query_pos)·W_posᵀ + b_pos` plus
  the looked-up `feat·W_mlpᵀ + b_mlp`, sums per query and divides (`featR`).  Both then normalise each column by its
  mean and variance over the `M` rows, the fused one with the variance as mean of squares minus squared mean, the plain
  one as mean of squared deviations.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Arr2 (a b : Nat) : Type := (⟨2, ![a, b]⟩ : Shape).Idx → EReal
/-- A rank-1 array of extended reals. -/
abbrev Arr1 (a : Nat) : Type := (⟨1, ![a]⟩ : Shape).Idx → EReal
/-- A rank-1 array of 32-bit words. -/
abbrev Words (a : Nat) : Type := (⟨1, ![a]⟩ : Shape).Idx → BitVec 32

/-- Coordinate `k` of a position row sits in column `k + 1`. -/
def col1 (k : Fin 3) : Fin 4 := ⟨k.val + 1, by omega⟩

/-- A lookup word with a negative value moved up by the table's length `L`. -/
def normW (L w : BitVec 32) : BitVec 32 := Scalar.select (IntOp.cmpi .slt w 0#32) (IntOp.addi w L) w

/-- The table row (of `n + 1` rows) a lookup word reads: moved up if negative, read signed, clipped. -/
def rowOf (n : Nat) (L w : BitVec 32) : Fin (n + 1) := ⟨min (normW L w).toInt.toNat n, by omega⟩

/-- The reference row edge `e` reads. -/
def rowRef (i3 : Words 1600000) (e : Fin 1600000) : Fin 100000 := rowOf 99999 100000#32 (i3 (ix1 e))
/-- The query row edge `e` reads. -/
def rowQry (i4 : Words 1600000) (e : Fin 1600000) : Fin 50000 := rowOf 49999 50000#32 (i4 (ix1 e))

/-- The edges summed into query row `q`. -/
def seg (i4 : Words 1600000) (q : Fin 50000) : Finset (Fin 1600000) :=
  Finset.univ.filter fun e => (i4 (ix1 e)).toInt = (q.val : ℤ)

/-- The float patterns the programs spell: `1.0`, `50000.0`, `1e-5` rounded. -/
def one : EReal := Ideal.ofBits .f32 0x3F800000#32
def cntM : EReal := Ideal.ofBits .f32 0x47435000#32
def eps : EReal := Ideal.ofBits .f32 0x3727C5AC#32

/-- A position row times `W_posᵀ`, at row `r` and channel `c`. -/
def posEmb {n : Nat} (x : Arr2 n 4) (w5 : Arr2 128 3) (r : Fin n) (c : Fin 128) : EReal :=
  ∑ k : Fin 3, x (ix2 r (col1 k)) * w5 (ix2 c k)
/-- A feature row times `W_mlpᵀ`. -/
def featEmb (x1 : Arr2 100000 128) (w7 : Arr2 128 128) (r : Fin 100000) (c : Fin 128) : EReal :=
  ∑ j : Fin 128, x1 (ix2 r j) * w7 (ix2 c j)

/-- The number of edges of a query row (as the programs count it: from zero, adding `1.0` per edge). -/
def cnt (i4 : Words 1600000) (q : Fin 50000) : EReal := 0 + ∑ _e ∈ seg i4 q, one

section Inputs
variable (x0 : Arr2 100000 4) (x1 : Arr2 100000 128) (x2 : Arr2 50000 4) (i3 i4 : Words 1600000)
  (w5 : Arr2 128 3) (b6 : Arr1 128) (w7 : Arr2 128 128) (b8 : Arr1 128) (g9 b10 : Arr1 128)

/-! ## The fused program -/

/-- Per reference point: both linear maps and both biases. -/
def combinedRef (r : Fin 100000) (c : Fin 128) : EReal :=
  ((posEmb x0 w5 r c + featEmb x1 w7 r c) + b6 (ix1 c)) + b8 (ix1 c)
/-- Its looked-up rows summed per query. -/
def segSumK (q : Fin 50000) (c : Fin 128) : EReal :=
  0 + ∑ e ∈ seg i4 q, combinedRef x0 x1 w5 b6 w7 b8 (rowRef i3 e) c
/-- The query's mean message. -/
def featK (q : Fin 50000) (c : Fin 128) : EReal :=
  Ideal.div (segSumK x0 x1 i3 i4 w5 b6 w7 b8 q c) (max (cnt i4 q) one) - min (cnt i4 q) one * posEmb x2 w5 q c
/-- Column sums of the mean message and of its square, over all query rows. -/
def sumK (c : Fin 128) : EReal := ∑ q : Fin 50000, featK x0 x1 x2 i3 i4 w5 b6 w7 b8 q c
def sumsqK (c : Fin 128) : EReal :=
  ∑ q : Fin 50000, featK x0 x1 x2 i3 i4 w5 b6 w7 b8 q c * featK x0 x1 x2 i3 i4 w5 b6 w7 b8 q c
def muK (c : Fin 128) : EReal := Ideal.div (sumK x0 x1 x2 i3 i4 w5 b6 w7 b8 c) cntM
def rsK (c : Fin 128) : EReal :=
  Ideal.rsqrt ((Ideal.div (sumsqK x0 x1 x2 i3 i4 w5 b6 w7 b8 c) cntM
      - muK x0 x1 x2 i3 i4 w5 b6 w7 b8 c * muK x0 x1 x2 i3 i4 w5 b6 w7 b8 c) + eps)
/-- The fused program's result. -/
def outK (q : Fin 50000) (c : Fin 128) : EReal :=
  max ((((featK x0 x1 x2 i3 i4 w5 b6 w7 b8 q c - muK x0 x1 x2 i3 i4 w5 b6 w7 b8 c) * rsK x0 x1 x2 i3 i4 w5 b6 w7 b8 c)
      * g9 (ix1 c)) + b10 (ix1 c)) 0

/-! ## The plain program -/

/-- Per edge: the position difference through `W_posᵀ`, plus its bias. -/
def posDiffEmb (e : Fin 1600000) (c : Fin 128) : EReal :=
  (∑ k : Fin 3, (x0 (ix2 (rowRef i3 e) (col1 k)) - x2 (ix2 (rowQry i4 e) (col1 k))) * w5 (ix2 c k)) + b6 (ix1 c)
/-- Per reference point: the feature map plus its bias. -/
def outFeat (r : Fin 100000) (c : Fin 128) : EReal := featEmb x1 w7 r c + b8 (ix1 c)
/-- Per edge: the message. -/
def edgeVal (e : Fin 1600000) (c : Fin 128) : EReal :=
  posDiffEmb x0 x2 i3 i4 w5 b6 e c + outFeat x1 w7 b8 (rowRef i3 e) c
def segSumR (q : Fin 50000) (c : Fin 128) : EReal :=
  0 + ∑ e ∈ seg i4 q, edgeVal x0 x1 x2 i3 i4 w5 b6 w7 b8 e c
def featR (q : Fin 50000) (c : Fin 128) : EReal :=
  Ideal.div (segSumR x0 x1 x2 i3 i4 w5 b6 w7 b8 q c) (max (cnt i4 q) one)
def muR (c : Fin 128) : EReal := Ideal.div (0 + ∑ q : Fin 50000, featR x0 x1 x2 i3 i4 w5 b6 w7 b8 q c) cntM
def varR (c : Fin 128) : EReal :=
  Ideal.div (0 + ∑ q : Fin 50000,
      (featR x0 x1 x2 i3 i4 w5 b6 w7 b8 q c - muR x0 x1 x2 i3 i4 w5 b6 w7 b8 c)
        * (featR x0 x1 x2 i3 i4 w5 b6 w7 b8 q c - muR x0 x1 x2 i3 i4 w5 b6 w7 b8 c)) cntM
def rsR (c : Fin 128) : EReal := Ideal.rsqrt (varR x0 x1 x2 i3 i4 w5 b6 w7 b8 c + eps)
/-- The plain program's result. -/
def outR (q : Fin 50000) (c : Fin 128) : EReal :=
  max ((((featR x0 x1 x2 i3 i4 w5 b6 w7 b8 q c - muR x0 x1 x2 i3 i4 w5 b6 w7 b8 c) * rsR x0 x1 x2 i3 i4 w5 b6 w7 b8 c)
      * g9 (ix1 c)) + b10 (ix1 c)) 0

end Inputs

/-- Every entry of an array is a real number. -/
def Real2 {a b : Nat} (x : Arr2 a b) : Prop := ∀ i, ∃ r : ℝ, x i = (r : EReal)
def Real1 {a : Nat} (x : Arr1 a) : Prop := ∀ i, ∃ r : ℝ, x i = (r : EReal)

end Cert.Spec

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.KHost.lean ====
/-
  The fused program's host operations between its kernels, read back: the transposed weights and reshaped rows the first
  stretch makes, and the per-query sums and counts the second stretch makes from the first kernel's array and the two
  edge-index arrays.  Entry `(q, c)` of the sums is the sum, over the edges whose query word read signed is `q`, of the
  looked-up row's entry `c`; entry `(q, 0)` of the counts is `1.0` added once per such edge.
-/
import proofs.«426789_j68745246539912_1_alg».proof.Proof.Gen.KernelIdeal.Frame
import proofs.«426789_j68745246539912_1_alg».proof.Proof.Spec
import proofs.«426789_j68745246539912_1_alg».proof.Proof.LibGS
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Stretch

open Cert.KernelIdeal Cert.KernelIdeal.Gen
open Idealize.ShloMosaic Idealize.ShloMosaic.TcCoe Idealize.ShloMosaic.ValueIdx Idealize.SL.Sem
open Idealize.ShloMosaic.StableHlo

/-! ## The second stretch as functions of its operands -/

/-- The lookup words: a negative word moved up by `100000`, as a column. -/
def lookupCol (i3 : IVec S1600000 32) : IVec S1600000x1 32 :=
  broadcastInDim S1600000x1 ![0] bcast_S1600000_S1600000x1_0
    (select (cmpi .slt i3 (broadcastInDim S1600000 ![] bcast_S_S1600000 (constantI S_ 32 0#32)))
      (addi i3 (broadcastInDim S1600000 ![] bcast_S_S1600000 (constantI S_ 32 100000#32))) i3)

/-- The looked-up rows of the first kernel's array, summed per query. -/
def segRows (cr : FVec Ideal S100000x128 .f32) (i3 i4 : IVec S1600000 32) : FVec Ideal S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 i4)
    (Host.gather gather_S100000x128_S1600000x1_S1600000x128_1_0_n_n_0_1_1128 cr (lookupCol i3))

/-- The edges counted per query, as a column. -/
def segCount (i4 : IVec S1600000 32) : FVec Ideal S50000x1 .f32 :=
  shapeCast S50000x1
    (Host.scatterAdd scatter_S50000_S1600000x1_S1600000_n_0_0_1
      (broadcastInDim S50000 ![] bcast_S_S50000 (constant S_ .f32 0x00000000#32))
      (broadcastInDim S1600000x1 ![0] bcast_S1600000_S1600000x1_0 i4)
      (broadcastInDim S1600000 ![] bcast_S_S1600000 (constant S_ .f32 0x3F800000#32)))
    shapeCasts_S50000_S50000x1

variable (m : (ℓ : Loc nD τ sig) → Buf (Elt Ideal) ℓ) (ρ : Dev nD → PrngReg)

/-! ## The first stretch -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_v0 (c : Dev nD) : V1 m ρ c main_v0
    = transpose S3x128 [1, 0] (m ((c : Thread nD τ).loc main_arg5)) transposes_S128x3_S3x128_1_0 := by
  show StableHlo.after hostOps0 (W0 m ρ c) (Proc.devRef .tc main_v0) = _
  after_results
theorem V1_v1 (c : Dev nD) : V1 m ρ c main_v1
    = transpose S128x128 [1, 0] (m ((c : Thread nD τ).loc main_arg7)) transposes_S128x128_S128x128_1_0 := by
  show StableHlo.after hostOps0 (W0 m ρ c) (Proc.devRef .tc main_v1) = _
  after_results
theorem V1_v2 (c : Dev nD) : V1 m ρ c main_v2
    = shapeCast S1x128 (m ((c : Thread nD τ).loc main_arg6)) shapeCasts_S128_S1x128 := by
  show StableHlo.after hostOps0 (W0 m ρ c) (Proc.devRef .tc main_v2) = _
  after_results
  rfl
theorem V1_v3 (c : Dev nD) : V1 m ρ c main_v3
    = shapeCast S1x128 (m ((c : Thread nD τ).loc main_arg8)) shapeCasts_S128_S1x128 := by
  show StableHlo.after hostOps0 (W0 m ρ c) (Proc.devRef .tc main_v3) = _
  after_results
  rfl
theorem V1_v4 (c : Dev nD) : V1 m ρ c main_v4
    = shapeCast S1x128 (m ((c : Thread nD τ).loc main_arg9)) shapeCasts_S128_S1x128 := by
  show StableHlo.after hostOps0 (W0 m ρ c) (Proc.devRef .tc main_v4) = _
  after_results
  rfl
theorem V1_v5 (c : Dev nD) : V1 m ρ c main_v5
    = shapeCast S1x128 (m ((c : Thread nD τ).loc main_arg10)) shapeCasts_S128_S1x128 := by
  show StableHlo.after hostOps0 (W0 m ρ c) (Proc.devRef .tc main_v5) = _
  after_results
  rfl

/-! ## The second stretch -/

theorem V4_v17 (c : Dev nD) : V4 m ρ c main_v17
    = segRows (W3 m ρ c (Proc.devRef .tc main_v6)) (W3 m ρ c (Proc.devRef .tc main_arg3))
        (W3 m ρ c (Proc.devRef .tc main_arg4)) := by
  show StableHlo.after hostOps2 (W3 m ρ c) (Proc.devRef .tc main_v17) = _
  after_results
  rfl
theorem V4_v22 (c : Dev nD) : V4 m ρ c main_v22 = segCount (W3 m ρ c (Proc.devRef .tc main_arg4)) := by
  show StableHlo.after hostOps2 (W3 m ρ c) (Proc.devRef .tc main_v22) = _
  after_results
  rfl
theorem V4_v7 (c : Dev nD) : V4 m ρ c main_v7 = W3 m ρ c (Proc.devRef .tc main_v7) := by
  show StableHlo.after hostOps2 (W3 m ρ c) (Proc.devRef .tc main_v7) = _
  after_results
theorem V4_v4 (c : Dev nD) : V4 m ρ c main_v4 = W3 m ρ c (Proc.devRef .tc main_v4) := by
  show StableHlo.after hostOps2 (W3 m ρ c) (Proc.devRef .tc main_v4) = _
  after_results
theorem V4_v5 (c : Dev nD) : V4 m ρ c main_v5 = W3 m ρ c (Proc.devRef .tc main_v5) := by
  show StableHlo.after hostOps2 (W3 m ρ c) (Proc.devRef .tc main_v5) = _
  after_results

/-! ## The second stretch read at an index -/

/-- A vector spread along a new trailing unit axis, at `(e, 0)`. -/
theorem col_apply {w : Nat} (x : IVec S1600000 w) (e : Fin 1600000) :
    broadcastInDim S1600000x1 ![0] bcast_S1600000_S1600000x1_0 x (ix2 e 0) = x (ix1 e) :=
  broadcastInDim_apply _ bcast_S1600000_S1600000x1_0 x (ix2 e 0) (ix1 e) (fun a => match a with
    | ⟨0, _⟩ => by show e.val = if (1600000 : Nat) = 1 then 0 else e.val; rw [if_neg (by decide)])

/-- The lookup word of edge `e`. -/
theorem lookupCol_apply (i3 : IVec S1600000 32) (e : Fin 1600000) :
    lookupCol i3 (ix2 e 0) = Cert.Spec.normW 100000#32 (i3 (ix1 e)) := by
  unfold lookupCol
  rw [col_apply]
  rfl

/-- The program's row scatter record is the row segment sum's. -/
theorem scatterRows_eq : scatter_S50000x128_S1600000x1_S1600000x128_1_0_0_1
    = Cert.LibGS.rowScatterDims 50000 1600000 128 Facts₀.scatter_S50000x128_S1600000x1_S1600000x128_1_0_0_1_wf := rfl
/-- The program's vector scatter record is the scalar segment sum's. -/
theorem scatterVec_eq : scatter_S50000_S1600000x1_S1600000_n_0_0_1
    = Cert.LibGS.vecScatterDims 50000 1600000 Facts₀.scatter_S50000_S1600000x1_S1600000_n_0_0_1_wf := rfl
/-- The program's row gather record is the row lookup's. -/
theorem gatherRows_eq : gather_S100000x128_S1600000x1_S1600000x128_1_0_n_n_0_1_1128
    = Cert.LibGS.rowGatherDims 100000 1600000 128 Facts₀.gather_S100000x128_S1600000x1_S1600000x128_1_0_n_n_0_1_1128_wf := rfl

/-- A looked-up row's entry. -/
theorem gathered_apply (cr : FVec Ideal S100000x128 .f32) (i3 : IVec S1600000 32) (e : Fin 1600000) (c : Fin 128) :
    Host.gather gather_S100000x128_S1600000x1_S1600000x128_1_0_n_n_0_1_1128 cr (lookupCol i3) (ix2 e c)
      = cr (ix2 (Cert.Spec.rowRef i3 e) c) := by
  rw [gatherRows_eq, Cert.LibGS.gather_rows_apply (by omega)]
  refine congrArg (fun r => cr (ix2 r c)) (Fin.ext ?_)
  show min (lookupCol i3 (ix2 e 0)).toInt.toNat (100000 - 1)
    = min (Cert.Spec.normW 100000#32 (i3 (ix1 e))).toInt.toNat 99999
  rw [lookupCol_apply]

/-- The host's accumulating scatter over the extended reals is the exact sum. -/
theorem scatterAdd_exact {s si u : Shape} {w : Nat} (d : ScatterDims s si u) (x : FVec Ideal s .f32) (idx : IVec si w)
    (upd : FVec Ideal u .f32) :
    Host.scatterAdd (F := Ideal) d x idx upd = Ideal.hostScatterAdd d x idx upd := rfl

/-- The edges the scatter sums into row `q`: those whose query word, read signed, is `q`. -/
theorem segCol (i4 : IVec S1600000 32) (q : Fin 50000) :
    (Finset.univ.filter fun e : Fin 1600000 =>
        (broadcastInDim S1600000x1 ![0] bcast_S1600000_S1600000x1_0 i4 (ix2 e 0)).toInt = (q.val : ℤ))
      = Cert.Spec.seg i4 q := by
  unfold Cert.Spec.seg
  refine Finset.filter_congr fun e _ => ?_
  rw [col_apply]

/-- A scalar spread over a whole array reads the scalar everywhere. -/
theorem zeros2_apply (i : S50000x128.Idx) :
    broadcastInDim S50000x128 ![] bcast_S_S50000x128 (constant (F := Ideal) S_ .f32 0x00000000#32) i = 0 :=
  Ideal.ofBits_zero_f32
theorem zeros1_apply (i : S50000.Idx) :
    broadcastInDim S50000 ![] bcast_S_S50000 (constant (F := Ideal) S_ .f32 0x00000000#32) i = 0 :=
  Ideal.ofBits_zero_f32
theorem ones_apply (i : S1600000.Idx) :
    broadcastInDim S1600000 ![] bcast_S_S1600000 (constant (F := Ideal) S_ .f32 0x3F800000#32) i = Cert.Spec.one :=
  rfl

/-- The per-query sums at `(q, c)`. -/
theorem segRows_apply (cr : FVec Ideal S100000x128 .f32) (i3 i4 : IVec S1600000 32) (q : Fin 50000) (c : Fin 128) :
    segRows cr i3 i4 (ix2 q c) = 0 + ∑ e ∈ Cert.Spec.seg i4 q, cr (ix2 (Cert.Spec.rowRef i3 e) c) := by
  unfold segRows
  rw [scatterAdd_exact, scatterRows_eq, Cert.LibGS.scatterAdd_rows_apply, segCol, zeros2_apply]
  refine congrArg (0 + ·) (Finset.sum_congr rfl fun e _ => ?_)
  exact gathered_apply cr i3 e c

/-- The per-query counts at `(q, 0)`. -/
theorem segCount_apply (i4 : IVec S1600000 32) (q : Fin 50000) :
    segCount i4 (ix2 q 0) = Cert.Spec.cnt i4 q := by
  unfold segCount Cert.Spec.cnt
  rw [shapeCast_apply _ shapeCasts_S50000_S50000x1 (ix2 q 0) (ix1 q) (by
    rw [Shape.rowMajor_val_one, Shape.rowMajor_val_two]
    show q.val = q.val * 1 + 0
    omega)]
  rw [scatterAdd_exact, scatterVec_eq, Cert.LibGS.scatterAdd_vec_apply, segCol, zeros1_apply]
  refine congrArg (0 + ·) (Finset.sum_congr rfl fun e _ => ?_)
  exact ones_apply _

end Cert.KernelIdeal.Stretch

end
-- ==== Proof.SpecT.lean ====
/-
  The fused program's four kernels, each as a function of the arrays it is handed, index by index.

  The first two kernels take the weights already transposed (`[3, 128]` and `[128, 128]`, channel last) and the
  biases as `[1, 128]` rows; the third takes the per-query sums `[50000, 128]`, the counts as a `[50000, 1]` column and the
  query's own position map; the fourth takes the messages, their column sums and column sums of squares as `[1, 128]`
  rows, and the scale and shift rows.
-/
import proofs.«426789_j68745246539912_1_alg».proof.Proof.Spec

noncomputable section

open scoped BigOperators

namespace Cert.Spec

open Idealize.ShloMosaic Idealize.ShloMosaic.ValueIdx

/-- A position row times the transposed `[3, 128]` weights. -/
def posEmbT {n : Nat} (x : Arr2 n 4) (wt : Arr2 3 128) (r : Fin n) (c : Fin 128) : EReal :=
  ∑ k : Fin 3, x (ix2 r (col1 k)) * wt (ix2 k c)

/-- The first kernel: both products and both bias rows. -/
def combinedT (x0 : Arr2 100000 4) (x1 : Arr2 100000 128) (wt : Arr2 3 128) (bp : Arr2 1 128) (wm : Arr2 128 128)
    (bm : Arr2 1 128) (r : Fin 100000) (c : Fin 128) : EReal :=
  ((posEmbT x0 wt r c + ∑ j : Fin 128, x1 (ix2 r j) * wm (ix2 j c)) + bp (ix2 0 c)) + bm (ix2 0 c)

/-- The third kernel's message: the sum over the clamped count, less `min(count, 1)` times the query's own map. -/
def featT (s : Arr2 50000 128) (cn : Arr2 50000 1) (qp : Arr2 50000 128) (q : Fin 50000) (c : Fin 128) : EReal :=
  Ideal.div (s (ix2 q c)) (max (cn (ix2 q 0)) one) - min (cn (ix2 q 0)) one * qp (ix2 q c)

/-- Its column sums over all query rows, and of the squares. -/
def sumT (s : Arr2 50000 128) (cn : Arr2 50000 1) (qp : Arr2 50000 128) (c : Fin 128) : EReal :=
  ∑ q : Fin 50000, featT s cn qp q c
def sumsqT (s : Arr2 50000 128) (cn : Arr2 50000 1) (qp : Arr2 50000 128) (c : Fin 128) : EReal :=
  ∑ q : Fin 50000, featT s cn qp q c * featT s cn qp q c

/-- The fourth kernel: normalise by the column mean and variance, scale, shift, clamp at zero. -/
def normT (f : Arr2 50000 128) (s ss g b : Arr2 1 128) (q : Fin 50000) (c : Fin 128) : EReal :=
  max ((((f (ix2 q c) - Ideal.div (s (ix2 0 c)) cntM)
        * Ideal.rsqrt ((Ideal.div (ss (ix2 0 c)) cntM
            - Ideal.div (s (ix2 0 c)) cntM * Ideal.div (s (ix2 0 c)) cntM) + eps))
      * g (ix2 0 c)) + b (ix2 0 c)) 0

end Cert.Spec

end
-- ==== Proof.R0.lean ====
/-
  The first kernel's result array, read off its run: row block `t` of the output (rows `5000·t … 5000·t + 4999`)
  is the body's value of row block `t` of the two point arrays and of the whole weight and bias arrays, so entry
  `(r, c)` is `∑ₖ pos[r, k+1]·Wt[k, c] + ∑ⱼ feat[r, j]·Wm[j, c] + bp[0, c] + bm[0, c]`.

  In order: each of the body's two products read at an entry as the sum over its one contracted axis (the left
  operand's column, the right operand's row); the body's stored value at an entry of its block; every window's block
  at a grid point as entries of its array (the two point windows and the result move down one block of 5000 rows per
  point, the weight and bias windows are their whole arrays at every point; the body reads columns 1 to 3 of the
  position block); so what point `t` writes back is row block `t` of the combined map; the twenty row blocks tile the
  `[100000, 128]` array (row `r` belongs to point `r / 5000`), so the array ends holding the combined map.
-/
import proofs.«426789_j68745246539912_1_alg».proof.Proof.Gen.KernelIdeal.Frame
import proofs.«426789_j68745246539912_1_alg».proof.Proof.SpecT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two products' index bookkeeping: the contracted axis is the left operand's column and the right operand's row -/

theorem lhsP_0 (i : S5000x128.Idx) (q : dot_S5000x3_S3x128_S5000x128_1_0_0_1_n_n.contr.Idx) :
    (dot_S5000x3_S3x128_S5000x128_1_0_0_1_n_n.lhsIdx i q 0).val = (i 0).val := by
  unfold DotDims.lhsIdx
  rw [dif_neg (show ¬(0 : Fin S5000x3.rank) ∈ dot_S5000x3_S3x128_S5000x128_1_0_0_1_n_n.lhsBatch by decide), dif_pos (show (0 : Fin S5000x3.rank) ∈ dot_S5000x3_S3x128_S5000x128_1_0_0_1_n_n.lhsNonContracting by decide)]
  rfl
theorem lhsP_1 (i : S5000x128.Idx) (q : dot_S5000x3_S3x128_S5000x128_1_0_0_1_n_n.contr.Idx) :
    (dot_S5000x3_S3x128_S5000x128_1_0_0_1_n_n.lhsIdx i q 1).val = (q ⟨0, by decide⟩).val :=
  dot_S5000x3_S3x128_S5000x128_1_0_0_1_n_n.lhsIdx_val_of_single rfl i q
theorem rhsP_0 (i : S5000x128.Idx) (q : dot_S5000x3_S3x128_S5000x128_1_0_0_1_n_n.contr.Idx) :
    (dot_S5000x3_S3x128_S5000x128_1_0_0_1_n_n.rhsIdx i q 0).val = (q ⟨0, by decide⟩).val :=
  dot_S5000x3_S3x128_S5000x128_1_0_0_1_n_n.rhsIdx_val_of_single rfl i q
theorem rhsP_1 (i : S5000x128.Idx) (q : dot_S5000x3_S3x128_S5000x128_1_0_0_1_n_n.contr.Idx) :
    (dot_S5000x3_S3x128_S5000x128_1_0_0_1_n_n.rhsIdx i q 1).val = (i 1).val := by
  unfold DotDims.rhsIdx
  rw [dif_neg (show ¬(1 : Fin S3x128.rank) ∈ dot_S5000x3_S3x128_S5000x128_1_0_0_1_n_n.rhsBatch by decide), dif_pos (show (1 : Fin S3x128.rank) ∈ dot_S5000x3_S3x128_S5000x128_1_0_0_1_n_n.rhsNonContracting by decide)]
  rfl

/-- The position product at an entry: the three-term sum over the contracted axis. -/
theorem posProd_apply (l : FVec Ideal S5000x3 .bf16) (r : FVec Ideal S3x128 .bf16) (p : Fin 5000) (q : Fin 128) :
    FloatOps.matmul dot_S5000x3_S3x128_S5000x128_1_0_0_1_n_n none l r (constant S5000x128 .f32 0x00000000#32) (ix2 p q)
      = ∑ k : Fin 3, l (ix2 p k) * r (ix2 k q) := by
  rw [Ideal.matmul_constant_zero_apply, ← Equiv.sum_comp (contrEquiv1 dot_S5000x3_S3x128_S5000x128_1_0_0_1_n_n 3 rfl rfl).symm]
  refine Finset.sum_congr rfl fun k _ => ?_
  have hk := contrEquiv1_symm_val dot_S5000x3_S3x128_S5000x128_1_0_0_1_n_n 3 rfl rfl k
  have el : dot_S5000x3_S3x128_S5000x128_1_0_0_1_n_n.lhsIdx (ix2 p q) ((contrEquiv1 dot_S5000x3_S3x128_S5000x128_1_0_0_1_n_n 3 rfl rfl).symm k) = ix2 p k := funext fun a => Fin.ext (by
    match a with
    | ⟨0, _⟩ => exact lhsP_0 _ _
    | ⟨1, _⟩ => exact (lhsP_1 _ _).trans hk)
  have er : dot_S5000x3_S3x128_S5000x128_1_0_0_1_n_n.rhsIdx (ix2 p q) ((contrEquiv1 dot_S5000x3_S3x128_S5000x128_1_0_0_1_n_n 3 rfl rfl).symm k) = ix2 k q := funext fun a => Fin.ext (by
    match a with
    | ⟨0, _⟩ => exact (rhsP_0 _ _).trans hk
    | ⟨1, _⟩ => exact rhsP_1 _ _)
  rw [el, er]

theorem lhsF_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsF_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsF_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsF_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The feature product at an entry: the sum over the 128 contracted channels. -/
theorem featProd_apply (l : FVec Ideal S5000x128 .bf16) (r : FVec Ideal S128x128 .bf16) (p : Fin 5000) (q : Fin 128) :
    FloatOps.matmul dot_S5000x128_S128x128_S5000x128_1_0_0_1_n_n none l r (constant S5000x128 .f32 0x00000000#32) (ix2 p q)
      = ∑ j : Fin 128, l (ix2 p j) * r (ix2 j q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsF_0 _ _
    | ⟨1, _⟩ => exact (lhsF_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsF_0 _ _).trans hk
    | ⟨1, _⟩ => exact rhsF_1 _ _)
  rw [el, er]

/-! ## The body's value at an entry of its row block -/

/-- Entry `(p, q)` of what the body stores: the two products' sums at `(p, q)`, then the two bias rows at column `q`. -/
theorem pay_apply (v0 : FVec Ideal S5000x3 .f32) (v2 : FVec Ideal S3x128 .f32) (v6 : FVec Ideal S5000x128 .f32)
    (v8 : FVec Ideal S128x128 .f32) (v13 v17 : FVec Ideal S1x128 .f32) (p : Fin 5000) (q : Fin 128) :
    k0_pay1 (F := Ideal) v0 v2 v6 v8 v13 v17 (ix2 p q)
      = ((∑ k : Fin 3, v0 (ix2 p k) * v2 (ix2 k q) + ∑ j : Fin 128, v6 (ix2 p j) * v8 (ix2 j q)) + v13 (ix2 0 q)) + v17 (ix2 0 q) := by
  unfold k0_pay1
  simp only [shapeCast_self]
  rw [addf_apply, addf_apply, addf_apply]
  rw [broadcastTo_1b_ab_apply, broadcastTo_1b_ab_apply]
  refine congrArg₂ (· + ·) (congrArg₂ (· + ·) (congrArg₂ (· + ·) ?_ ?_) rfl) rfl
  · exact posProd_apply _ _ p q
  · exact featProd_apply _ _ p q

-- the TensorCore's buffer contents when the region is entered: a parameter
variable (V : (c : Dev nD) → (b : Ref sig .tc) → Buf (Elt Ideal) ((c : Thread nD τ).loc b))

/-- The arrays the region finds, by their literal types. -/
abbrev a0 (c : Dev nD) : FVec Ideal S100000x4 .f32 := V c main_arg0
abbrev a1 (c : Dev nD) : FVec Ideal S100000x128 .f32 := V c main_arg1
abbrev wt (c : Dev nD) : FVec Ideal S3x128 .f32 := V c main_v0
abbrev bp (c : Dev nD) : FVec Ideal S1x128 .f32 := V c main_v2
abbrev wm (c : Dev nD) : FVec Ideal S128x128 .f32 := V c main_v1
abbrev bm (c : Dev nD) : FVec Ideal S1x128 .f32 := V c main_v3

/-! ## Each window's block at a grid point, as entries of its array -/

theorem hz : (![0, 0] : Fin 2 → Nat) = fun _ => 0 := funext fun a => by fin_cases a <;> rfl

/-- The block index maps, decided over the twenty points: the two point windows and the result move one row block per
    point; the weight and bias windows stay on their one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Row `p` of the position block at point `t` is row `5000·t + p` of the position array. -/
theorem blk_pos (c : Dev nD) (t : Fin cfg0.N) (x : S5000x4.Idx) (k : S100000x4.Idx)
    (hk0 : (k 0).val = 5000 * t.val + (x 0).val) (hk1 : (k 1).val = (x 1).val) :
    (iblk0 V c 0 t : FVec Ideal S5000x4 .f32) x = a0 V c k := by
  obtain ⟨⟨e0, e1⟩, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 4 + 1 * (x 1).val = (k 1).val; rw [e1, hk1]; omega

/-- Row `p` of the feature block at point `t` is row `5000·t + p` of the feature array. -/
theorem blk_feat (c : Dev nD) (t : Fin cfg0.N) (x : S5000x128.Idx) (k : S100000x128.Idx)
    (hk0 : (k 0).val = 5000 * t.val + (x 0).val) (hk1 : (k 1).val = (x 1).val) :
    (iblk0 V c 1 t : FVec Ideal S5000x128 .f32) x = a1 V c k := by
  obtain ⟨-, ⟨e0, e1⟩, -⟩ := idx_facts t
  unfold iblk0
  rw [View.read_apply]
  show V c main_arg1 _ = V c main_arg1 _
  refine congrArg (V c main_arg1) (funext fun a => Fin.ext ?_)
  match a with
  | ⟨0, _⟩ => show win0_1.index t (0 : Fin 2) * 5000 + 1 * (x 0).val = (k 0).val; rw [e0, hk0]; omega
  | ⟨1, _⟩ => show win0_1.index t (1 : Fin 2) * 128 + 1 * (x 1).val = (k 1).val; rw [e1, hk1]; omega

/-- The position weights' block is the whole `[3, 128]` array at every point. -/
theorem blk_wt (c : Dev nD) (t : Fin cfg0.N) (x : S3x128.Idx) (k : S3x128.Idx)
    (hk0 : (k 0).val = (x 0).val) (hk1 : (k 1).val = (x 1).val) :
    (iblk0 V c 2 t : FVec Ideal S3x128 .f32) x = wt V c k := by
  obtain ⟨-, -, ⟨e0, e1⟩, -⟩ := idx_facts t
  unfold iblk0
  rw [View.read_apply]
  show V c main_v0 _ = V c main_v0 _
  refine congrArg (V c main_v0) (funext fun a => Fin.ext ?_)
  match a with
  | ⟨0, _⟩ => show win0_2.index t (0 : Fin 2) * 3 + 1 * (x 0).val = (k 0).val; rw [e0, hk0]; omega
  | ⟨1, _⟩ => show win0_2.index t (1 : Fin 2) * 128 + 1 * (x 1).val = (k 1).val; rw [e1, hk1]; omega

/-- The position bias row's block is the whole row at every point. -/
theorem blk_bp (c : Dev nD) (t : Fin cfg0.N) (x : S1x128.Idx) (k : S1x128.Idx)
    (hk0 : (k 0).val = (x 0).val) (hk1 : (k 1).val = (x 1).val) :
    (iblk0 V c 3 t : FVec Ideal S1x128 .f32) x = bp V c k := by
  obtain ⟨-, -, -, ⟨e0, e1⟩, -⟩ := idx_facts t
  unfold iblk0
  rw [View.read_apply]
  show V c main_v2 _ = V c main_v2 _
  refine congrArg (V c main_v2) (funext fun a => Fin.ext ?_)
  match a with
  | ⟨0, _⟩ => show win0_3.index t (0 : Fin 2) * 1 + 1 * (x 0).val = (k 0).val; rw [e0, hk0]; omega
  | ⟨1, _⟩ => show win0_3.index t (1 : Fin 2) * 128 + 1 * (x 1).val = (k 1).val; rw [e1, hk1]; omega

/-- The feature weights' block is the whole `[128, 128]` array at every point. -/
theorem blk_wm (c : Dev nD) (t : Fin cfg0.N) (x : S128x128.Idx) (k : S128x128.Idx)
    (hk0 : (k 0).val = (x 0).val) (hk1 : (k 1).val = (x 1).val) :
    (iblk0 V c 4 t : FVec Ideal S128x128 .f32) x = wm V c k := by
  obtain ⟨-, -, -, -, ⟨e0, e1⟩, -⟩ := idx_facts t
  unfold iblk0
  rw [View.read_apply]
  show V c main_v1 _ = V c main_v1 _
  refine congrArg (V c main_v1) (funext fun a => Fin.ext ?_)
  match a with
  | ⟨0, _⟩ => show win0_4.index t (0 : Fin 2) * 128 + 1 * (x 0).val = (k 0).val; rw [e0, hk0]; omega
  | ⟨1, _⟩ => show win0_4.index t (1 : Fin 2) * 128 + 1 * (x 1).val = (k 1).val; rw [e1, hk1]; omega

/-- The feature bias row's block is the whole row at every point. -/
theorem blk_bm (c : Dev nD) (t : Fin cfg0.N) (x : S1x128.Idx) (k : S1x128.Idx)
    (hk0 : (k 0).val = (x 0).val) (hk1 : (k 1).val = (x 1).val) :
    (iblk0 V c 5 t : FVec Ideal S1x128 .f32) x = bm V c k := by
  obtain ⟨-, -, -, -, -, ⟨e0, e1⟩, -⟩ := idx_facts t
  unfold iblk0
  rw [View.read_apply]
  show V c main_v3 _ = V c main_v3 _
  refine congrArg (V c main_v3) (funext fun a => Fin.ext ?_)
  match a with
  | ⟨0, _⟩ => show win0_5.index t (0 : Fin 2) * 1 + 1 * (x 0).val = (k 0).val; rw [e0, hk0]; omega
  | ⟨1, _⟩ => show win0_5.index t (1 : Fin 2) * 128 + 1 * (x 1).val = (k 1).val; rw [e1, hk1]; omega

/-! ## What a grid point leaves in the result's staging buffer -/

/-- The body's slice of the position block: columns 1 to 3. -/
theorem ld_pos (x0 : FVec Ideal S5000x4 .f32) (p : Fin 5000) (k : Fin 3) :
    View.ld (Val := Elt Ideal) (e' := .f32) x0 r0_0 (ix2 p k) = x0 (ix2 p (Cert.Spec.col1 k)) := by
  show x0 _ = x0 _
  refine congrArg x0 (funext fun a => Fin.ext ?_)
  match a with
  | ⟨0, _⟩ => show 0 + 1 * p.val = p.val; omega
  | ⟨1, _⟩ => show 1 + 1 * k.val = k.val + 1; omega

/-- Entry `(p, q)` of the staging buffer after the body, from the six input blocks. -/
theorem out_apply (x0 : FVec Ideal S5000x4 .f32) (x1 : FVec Ideal S5000x128 .f32) (x2 : FVec Ideal S3x128 .f32)
    (x3 : FVec Ideal S1x128 .f32) (x4 : FVec Ideal S128x128 .f32) (x5 : FVec Ideal S1x128 .f32) (p : Fin 5000) (q : Fin 128) :
    out0_6 (F := Ideal) x0 x1 x2 x3 x4 x5 (ix2 p q)
      = ((∑ k : Fin 3, x0 (ix2 p (Cert.Spec.col1 k)) * x2 (ix2 k q) + ∑ j : Fin 128, x1 (ix2 p j) * x4 (ix2 j q))
          + x3 (ix2 0 q)) + x5 (ix2 0 q) := by
  unfold out0_6
  rw [View.canon_unit_zero hz]
  simp only [View.ld_unit_zero (S := S3x128) hz, View.ld_unit_zero (S := S5000x128) hz,
    View.ld_unit_zero (S := S128x128) hz, View.ld_unit_zero (S := S1x128) hz]
  rw [pay_apply]
  refine congrArg₂ (· + ·) (congrArg₂ (· + ·) (congrArg₂ (· + ·) ?_ rfl) rfl) rfl
  exact Finset.sum_congr rfl fun k _ => congrArg₂ (· * ·) (ld_pos x0 p k) rfl

/-- Entry `(p, q)` of what point `t` leaves is the combined map at row `5000·t + p`, column `q`. -/
theorem point_apply (c : Dev nD) (t : Fin cfg0.N) (p : Fin 5000) (q : Fin 128) (r : Fin 100000)
    (hr : r.val = 5000 * t.val + p.val) :
    out0_6 (F := Ideal) (iblk0 V c 0 t) (iblk0 V c 1 t) (iblk0 V c 2 t) (iblk0 V c 3 t) (iblk0 V c 4 t) (iblk0 V c 5 t) (ix2 p q)
      = Cert.Spec.combinedT (a0 V c) (a1 V c) (wt V c) (bp V c) (wm V c) (bm V c) r q := by
  refine (out_apply (iblk0 V c 0 t) (iblk0 V c 1 t) (iblk0 V c 2 t) (iblk0 V c 3 t) (iblk0 V c 4 t) (iblk0 V c 5 t) p q).trans ?_
  unfold Cert.Spec.combinedT Cert.Spec.posEmbT
  refine congrArg₂ (· + ·) (congrArg₂ (· + ·) (congrArg₂ (· + ·) ?_ ?_) ?_) ?_
  · refine Finset.sum_congr rfl fun k _ => congrArg₂ (· * ·) ?_ ?_
    · exact blk_pos V c t (ix2 p (Cert.Spec.col1 k)) (ix2 r (Cert.Spec.col1 k)) hr rfl
    · exact blk_wt V c t (ix2 k q) (ix2 k q) rfl rfl
  · refine Finset.sum_congr rfl fun j _ => congrArg₂ (· * ·) ?_ ?_
    · exact blk_feat V c t (ix2 p j) (ix2 r j) hr rfl
    · exact blk_wm V c t (ix2 j q) (ix2 j q) rfl rfl
  · exact blk_bp V c t (ix2 0 q) (ix2 0 q) rfl rfl
  · exact blk_bm V c t (ix2 0 q) (ix2 0 q) rfl rfl

/-! ## From the row blocks to the array -/

/-- What point `t` writes back is row block `t` of the combined map. -/
theorem flushed_eq (c : Dev nD) (t : Fin cfg0.N) :
    (dat0 V c).flushed 6 t = ((cfg0.win 6).blk t).view.read (Elt Ideal)
      (fun i : S100000x128.Idx => Cert.Spec.combinedT (a0 V c) (a1 V c) (wt V c) (bp V c) (wm V c) (bm V c) (i 0) (i 1)) := by
  obtain ⟨-, -, -, -, -, -, e0, e1⟩ := idx_facts t
  show (cfg0.win 6).cut (grid0.coords t) ((dat0 V c).after 6 t) = _
  rw [after0_6]
  refine funext fun (j : S5000x128.Idx) => ?_
  obtain ⟨p, q, rfl⟩ : ∃ (p : Fin 5000) (q : Fin 128), j = ix2 p q := ⟨j 0, j 1, eq_ix2 j⟩
  have h0 : ((((cfg0.win 6).blk t).view.emb (ix2 p q) 0 : Fin 100000)).val = 5000 * t.val + p.val := by
    show win0_6.index t (0 : Fin 2) * 5000 + 1 * p.val = _
    rw [e0]; omega
  have h1 : (((cfg0.win 6).blk t).view.emb (ix2 p q) 1 : Fin 128) = q := Fin.ext (by
    show win0_6.index t (1 : Fin 2) * 128 + 1 * q.val = q.val
    rw [e1]; omega)
  refine (point_apply V c t p q (((cfg0.win 6).blk t).view.emb (ix2 p q) 0) h0).trans ?_
  exact congrArg (Cert.Spec.combinedT (a0 V c) (a1 V c) (wt V c) (bp V c) (wm V c) (bm V c) (((cfg0.win 6).blk t).view.emb (ix2 p q) 0)) h1.symm

/-- An entry of the result array lies in point `t`'s block iff each coordinate lies in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v6).slice (win0_6.rect t)).set ↔ _
  rw [View.set_slice_whole, Rect.mem_set_unit]
  exact Iff.rfl

/-- Row `r` is written back by point `r / 5000`: the twenty row blocks tile the array. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e0, e1⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- THE OUTPUT ARRAY after the region: the combined per-reference-point map, entry by entry. -/
theorem value (c : Dev nD) :
    (dat0 V c).arrAt 6 cfg0.N
      = fun i => Cert.Spec.combinedT (a0 V c) (a1 V c) (wt V c) (bp V c) (wm V c) (bm V c) (i 0) (i 1) :=
  (dat0 V c).arrAt_eq_of_cover 6 _ (fun t _ => flushed_eq V c t) cover

end Cert.KernelIdeal.R0

end
-- ==== Proof.R1.lean ====
/-
  The second kernel's result array, read off its run: row block `t` of the output is the product of row block `t` of
  the query positions (columns 1..3) with the whole transposed weights, so entry `(q, c)` is `∑ₖ pos[q, k+1]·Wt[k, c]`.
-/
import proofs.«426789_j68745246539912_1_alg».proof.Proof.Gen.KernelIdeal.Frame
import proofs.«426789_j68745246539912_1_alg».proof.Proof.SpecT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The product at an entry

The body multiplies a `5000 × 3` block by the `3 × 128` weights into a zero accumulator: contraction over the one
shared axis of extent 3. The four facts below say where the product's operand indices sit: the left operand at
(output row, contraction index), the right operand at (contraction index, output column). -/

theorem lhs_ax0 (i : S5000x128.Idx) (q : dot_S5000x3_S3x128_S5000x128_1_0_0_1_n_n.contr.Idx) :
    (dot_S5000x3_S3x128_S5000x128_1_0_0_1_n_n.lhsIdx i q 0).val = (i 0).val := by
  unfold DotDims.lhsIdx
  rw [dif_neg (show ¬(0 : Fin S5000x3.rank) ∈ dot_S5000x3_S3x128_S5000x128_1_0_0_1_n_n.lhsBatch by decide), dif_pos (show (0 : Fin S5000x3.rank) ∈ dot_S5000x3_S3x128_S5000x128_1_0_0_1_n_n.lhsNonContracting by decide)]
  rfl
theorem lhs_ax1 (i : S5000x128.Idx) (q : dot_S5000x3_S3x128_S5000x128_1_0_0_1_n_n.contr.Idx) :
    (dot_S5000x3_S3x128_S5000x128_1_0_0_1_n_n.lhsIdx i q 1).val = (q ⟨0, by decide⟩).val :=
  dot_S5000x3_S3x128_S5000x128_1_0_0_1_n_n.lhsIdx_val_of_single rfl i q
theorem rhs_ax0 (i : S5000x128.Idx) (q : dot_S5000x3_S3x128_S5000x128_1_0_0_1_n_n.contr.Idx) :
    (dot_S5000x3_S3x128_S5000x128_1_0_0_1_n_n.rhsIdx i q 0).val = (q ⟨0, by decide⟩).val :=
  dot_S5000x3_S3x128_S5000x128_1_0_0_1_n_n.rhsIdx_val_of_single rfl i q
theorem rhs_ax1 (i : S5000x128.Idx) (q : dot_S5000x3_S3x128_S5000x128_1_0_0_1_n_n.contr.Idx) :
    (dot_S5000x3_S3x128_S5000x128_1_0_0_1_n_n.rhsIdx i q 1).val = (i 1).val := by
  unfold DotDims.rhsIdx
  rw [dif_neg (show ¬(1 : Fin S3x128.rank) ∈ dot_S5000x3_S3x128_S5000x128_1_0_0_1_n_n.rhsBatch by decide), dif_pos (show (1 : Fin S3x128.rank) ∈ dot_S5000x3_S3x128_S5000x128_1_0_0_1_n_n.rhsNonContracting by decide)]
  rfl

/-- The body's value at entry `(p, q)` of its block: the three-term sum `∑ₖ v0[p, k]·v2[k, q]` (changes of float format
    are the identity on extended reals, and the accumulator is zero). -/
theorem pay_apply (v0 : Vec Ideal S5000x3 .f32) (v2 : Vec Ideal S3x128 .f32) (p : Fin 5000) (q : Fin 128) :
    k1_pay1 (F := Ideal) v0 v2 (ix2 p q) = ∑ k : Fin 3, v0 (ix2 p k) * v2 (ix2 k q) := by
  unfold k1_pay1
  rw [shapeCast_self]
  refine (Ideal.matmul_constant_zero_apply dot_S5000x3_S3x128_S5000x128_1_0_0_1_n_n none _ _ (ix2 p q)).trans ?_
  rw [← Equiv.sum_comp (contrEquiv1 dot_S5000x3_S3x128_S5000x128_1_0_0_1_n_n 3 rfl rfl).symm]
  refine Finset.sum_congr rfl fun k _ => ?_
  have hk := contrEquiv1_symm_val dot_S5000x3_S3x128_S5000x128_1_0_0_1_n_n 3 rfl rfl k
  have el : dot_S5000x3_S3x128_S5000x128_1_0_0_1_n_n.lhsIdx (ix2 p q) ((contrEquiv1 dot_S5000x3_S3x128_S5000x128_1_0_0_1_n_n 3 rfl rfl).symm k) = ix2 p k := funext fun a => Fin.ext (by
    match a with
    | ⟨0, _⟩ => exact lhs_ax0 _ _
    | ⟨1, _⟩ => exact (lhs_ax1 _ _).trans hk)
  have er : dot_S5000x3_S3x128_S5000x128_1_0_0_1_n_n.rhsIdx (ix2 p q) ((contrEquiv1 dot_S5000x3_S3x128_S5000x128_1_0_0_1_n_n 3 rfl rfl).symm k) = ix2 k q := funext fun a => Fin.ext (by
    match a with
    | ⟨0, _⟩ => exact (rhs_ax0 _ _).trans hk
    | ⟨1, _⟩ => exact rhs_ax1 _ _)
  rw [el, er]
  rfl

/-- The body's left operand is its `5000 × 4` block with the first column dropped: column `k` of the slice is column
    `k + 1` of the block. -/
theorem ld_cols (x0 : Vec Ideal S5000x4 .f32) (p : Fin 5000) (k : Fin 3) :
    View.ld x0 r1_0 (ix2 p k) = x0 (ix2 p (Cert.Spec.col1 k)) := by
  show x0 _ = x0 _
  congr 1; funext a; apply Fin.ext
  match a with
  | ⟨0, _⟩ => show 0 + 1 * p.val = p.val; omega
  | ⟨1, _⟩ => show 1 + 1 * k.val = k.val + 1; omega

/-- One entry of one block: if row `p` of the position block is row `r` of the position array `A`, and the weight block is
    the weight array `W`, the body's value at `(p, q)` is the position map of `A` and `W` at `(r, q)`. -/
theorem point_eq (A : FVec Ideal S50000x4 .f32) (W : FVec Ideal S3x128 .f32) (x0 : Vec Ideal S5000x4 .f32) (x1 : Vec Ideal S3x128 .f32)
    (p : Fin 5000) (q : Fin 128) (r : Fin 50000)
    (h0 : ∀ k : Fin 4, x0 (ix2 p k) = A (ix2 r k)) (h1 : ∀ (k : Fin 3) (q : Fin 128), x1 (ix2 k q) = W (ix2 k q)) :
    k1_pay1 (F := Ideal) (View.ld x0 r1_0) x1 (ix2 p q) = Cert.Spec.posEmbT A W r q := by
  rw [pay_apply]
  unfold Cert.Spec.posEmbT
  refine Finset.sum_congr rfl fun k _ => ?_
  rw [ld_cols, h0, h1]

/-! ## From blocks to the array -/

-- the TensorCore's buffer contents when the region is entered: a parameter
variable (V : (c : Dev nD) → (b : Ref sig .tc) → Buf (Elt Ideal) ((c : Thread nD τ).loc b))

/-- The arrays the region finds, by their literal types. -/
abbrev a2 (c : Dev nD) : FVec Ideal S50000x4 .f32 := V c main_arg2
abbrev wt (c : Dev nD) : FVec Ideal S3x128 .f32 := V c main_v0

theorem hz : (![0, 0] : Fin 2 → Nat) = fun _ => 0 := funext fun a => by fin_cases a <;> rfl

/-- Where the blocks sit, at every grid point `t`: the positions' and the output's block is row block `t` (all columns);
    the weights' block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the position map of the arrays the region was entered with: entry `(p, q)`
    of the block is row `5000·t + p` of the array, and that row of the positions is row `p` of the positions' block. -/
theorem flushed_eq (c : Dev nD) (t : Fin cfg1.N) :
    (dat1 V c).flushed 2 t = ((cfg1.win 2).blk t).view.read (Elt Ideal) (fun i => Cert.Spec.posEmbT (a2 V c) (wt V c) (i 0) (i 1)) := by
  show (cfg1.win 2).cut (grid1.coords t) ((dat1 V c).after 2 t) = _
  rw [after1_2]
  unfold out1_2
  rw [View.canon_unit_zero hz]
  simp only [View.ld_unit_zero (S := S3x128) hz]
  obtain ⟨e00, e01, e10, e11, e20, e21⟩ := idx_facts t
  funext j
  obtain ⟨p, q, rfl⟩ : ∃ (p : Fin 5000) (q : Fin 128), j = ix2 p q := ⟨j 0, j 1, eq_ix2 j⟩
  show k1_pay1 (F := Ideal) (View.ld (iblk1 V c 0 t) r1_0) (iblk1 V c 1 t) (ix2 p q)
    = Cert.Spec.posEmbT (a2 V c) (wt V c) ((((cfg1.win 2).blk t).view.emb (ix2 p q)) 0) ((((cfg1.win 2).blk t).view.emb (ix2 p q)) 1)
  have hr : 5000 * t.val + p.val < 50000 := by
    have h1 : t.val < cfg1.N := t.isLt
    have hN : cfg1.N = 10 := N_1
    have h2 := p.isLt
    omega
  refine (point_eq (a2 V c) (wt V c) (iblk1 V c 0 t) (iblk1 V c 1 t) p q ⟨5000 * t.val + p.val, hr⟩ ?_ ?_).trans ?_
  · intro k
    show V c main_arg2 (((cfg1.win 0).blk t).view.emb (ix2 p k)) = V c main_arg2 (ix2 _ k)
    congr 1; funext a; apply Fin.ext
    match a with
    | ⟨0, _⟩ => show win1_0.index t (0 : Fin 2) * 5000 + 1 * p.val = 5000 * t.val + p.val; omega
    | ⟨1, _⟩ => show win1_0.index t (1 : Fin 2) * 4 + 1 * k.val = k.val; omega
  · intro k q
    show V c main_v0 (((cfg1.win 1).blk t).view.emb (ix2 k q)) = V c main_v0 (ix2 k q)
    congr 1; funext a; apply Fin.ext
    match a with
    | ⟨0, _⟩ => show win1_1.index t (0 : Fin 2) * 3 + 1 * k.val = k.val; omega
    | ⟨1, _⟩ => show win1_1.index t (1 : Fin 2) * 128 + 1 * q.val = q.val; omega
  · congr 1 <;> apply Fin.ext
    · show 5000 * t.val + p.val = win1_2.index t (0 : Fin 2) * 5000 + 1 * p.val; omega
    · show q.val = win1_2.index t (1 : Fin 2) * 128 + 1 * q.val; omega

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v7).slice (win1_2.rect t)).set ↔ _
  rw [View.set_slice_whole, Rect.mem_set_unit]
  exact Iff.rfl

/-- The ten row blocks cover the array: row `r` lies in block `r / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨_, _, _, _, e20, e21⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the region: the query points' position map, entry by entry. -/
theorem value (c : Dev nD) :
    (dat1 V c).arrAt 2 cfg1.N = fun i => Cert.Spec.posEmbT (a2 V c) (wt V c) (i 0) (i 1) :=
  (dat1 V c).arrAt_eq_of_cover 2 _ (fun t _ => flushed_eq V c t) cover

end Cert.KernelIdeal.R1

end
-- ==== Proof.R2.lean ====
/-
  The third kernel's three result arrays, read off its run. Row block `t` of the message array is the body's value of
  row block `t` of the sums, counts and query maps. The two `[1, 128]` accumulators are reset at the first grid point and
  grow by the block's column sums (of the messages, and of their squares) at every point, so after the last point they hold
  the column sums over all `50000` rows.

  The road. Each grid point's body leaves, in the message block, the message of the point's three input blocks, and in
  each accumulator what was there (zero at the first point) plus the block's column sum. Row `r` of block `t` of an
  input array is row `5000 t + r` of the array, so the message block's entry `(r, k)` is the message of query
  `5000 t + r` at column `k`; the message array is covered by the ten blocks, row `q` by block `q / 5000`. For the
  accumulators the messages are extended by zero to all naturals, so that "the first `5000 (n + 1)` queries" is a range
  of naturals and one more block is one more stretch of `5000`: after point `n` an accumulator holds the sum over the
  range `5000 (n + 1)`, by induction on `n`; at `n = 9` that is the sum over all queries. The accumulators' one block,
  the whole `[1, 128]` array, is written back once, after the last point.
-/
import proofs.«426789_j68745246539912_1_alg».proof.Proof.Gen.KernelIdeal.Frame
import proofs.«426789_j68745246539912_1_alg».proof.Proof.SpecT
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Basic

set_option maxRecDepth 16384

noncomputable section

open scoped BigOperators

namespace Cert.KernelIdeal.R2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered: a parameter
variable (V : (c : Dev nD) → (b : Ref sig .tc) → Buf (Elt Ideal) ((c : Thread nD τ).loc b))

/-- The arrays the region finds, by their literal types. -/
abbrev sA (c : Dev nD) : FVec Ideal S50000x128 .f32 := V c main_v17
abbrev cA (c : Dev nD) : FVec Ideal S50000x1 .f32 := V c main_v22
abbrev qA (c : Dev nD) : FVec Ideal S50000x128 .f32 := V c main_v7

/-! ## What one grid point's body leaves in each result block

For any float values: at the first point (the reset taken) and at a later point (not taken), each result block is the
body's value of the blocks it read — the accumulators' of the zero row at the first point, of what the point before left
at a later one. -/

section Pieces
variable {F : FTy → Type} [FloatOps F]

/-- A block is read and written at offset zero on both axes. -/
theorem hz : (![0, 0] : Fin 2 → Nat) = fun _ => 0 := funext fun a => by fin_cases a <;> rfl

/-- First point: the message block is the message of the three input blocks. -/
theorem pieceA3 (c : Dev nD) (i : grid2.Coords) (a1 : Memref sig .tc .vmem S5000x128 .f32) (h1 : a1.IsWhole) (a2 : Memref sig .tc .vmem S5000x1 .f32) (h2 : a2.IsWhole) (a3 : Memref sig .tc .vmem S5000x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond2_0 i) (x0 : Vec F S5000x128 .f32) (x1 : Vec F S5000x1 .f32) (x2 : Vec F S5000x128 .f32) :
    out2_A_3 c i a1 h1 a2 h2 a3 h3 a4 h4 a5 h5 a6 h6 hc x0 x1 x2 = k2_pay3 x1 x0 x2 := by
  unfold out2_A_3
  rw [View.read_writes_eq_canon _ _ _ (cover2_A_3 c i a1 h1 a2 h2 a3 h3 a4 h4 a5 h5 a6 h6 hc x0 x1 x2)]
  unfold kernelRun2_A
  dsimp only
  sl_unfold_words
  rw [View.canon_unit_zero hz]
  simp only [View.readAt_eq_ld, h1.read_unread, h2.read_unread, h3.read_unread, View.ld_unit_zero (S := S5000x128) hz, View.ld_unit_zero (S := S5000x1) hz]

/-- First point: the column sums are the zero row plus the block's column sums. -/
theorem pieceA4 (c : Dev nD) (i : grid2.Coords) (a1 : Memref sig .tc .vmem S5000x128 .f32) (h1 : a1.IsWhole) (a2 : Memref sig .tc .vmem S5000x1 .f32) (h2 : a2.IsWhole) (a3 : Memref sig .tc .vmem S5000x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond2_0 i) (x0 : Vec F S5000x128 .f32) (x1 : Vec F S5000x1 .f32) (x2 : Vec F S5000x128 .f32) :
    out2_A_4 c i a1 h1 a2 h2 a3 h3 a4 h4 a5 h5 a6 h6 hc x0 x1 x2 = k2_pay4 x1 x0 x2 (k2_pay1 (F := F)) := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz, View.ld_unit_zero (S := S5000x1) hz]

/-- First point: the same for the column sums of squares. -/
theorem pieceA5 (c : Dev nD) (i : grid2.Coords) (a1 : Memref sig .tc .vmem S5000x128 .f32) (h1 : a1.IsWhole) (a2 : Memref sig .tc .vmem S5000x1 .f32) (h2 : a2.IsWhole) (a3 : Memref sig .tc .vmem S5000x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond2_0 i) (x0 : Vec F S5000x128 .f32) (x1 : Vec F S5000x1 .f32) (x2 : Vec F S5000x128 .f32) :
    out2_A_5 c i a1 h1 a2 h2 a3 h3 a4 h4 a5 h5 a6 h6 hc x0 x1 x2 = k2_pay5 x1 x0 x2 (k2_pay2 (F := F)) := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz, View.ld_unit_zero (S := S5000x1) hz]

/-- Later point: the message block is the message of the three input blocks. -/
theorem pieceB3 (c : Dev nD) (i : grid2.Coords) (a1 : Memref sig .tc .vmem S5000x128 .f32) (h1 : a1.IsWhole) (a2 : Memref sig .tc .vmem S5000x1 .f32) (h2 : a2.IsWhole) (a3 : Memref sig .tc .vmem S5000x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S5000x128 .f32) (x1 : Vec F S5000x1 .f32) (x2 : Vec F S5000x128 .f32) (xo4 : Vec F S1x128 .f32) (xo5 : Vec F S1x128 .f32) :
    out2_B_3 c i a1 h1 a2 h2 a3 h3 a4 h4 a5 h5 a6 h6 hc x0 x1 x2 xo4 xo5 = k2_pay3 x1 x0 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  sl_unfold_words
  rw [View.canon_unit_zero hz]
  simp only [View.readAt_eq_ld, h1.read_unread, h2.read_unread, h3.read_unread, h5.read_unread, h6.read_unread, View.ld_unit_zero (S := S5000x128) hz, View.ld_unit_zero (S := S5000x1) hz, View.ld_unit_zero (S := S1x128) hz]

/-- Later point: the column sums are what the point before left plus the block's column sums. -/
theorem pieceB4 (c : Dev nD) (i : grid2.Coords) (a1 : Memref sig .tc .vmem S5000x128 .f32) (h1 : a1.IsWhole) (a2 : Memref sig .tc .vmem S5000x1 .f32) (h2 : a2.IsWhole) (a3 : Memref sig .tc .vmem S5000x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S5000x128 .f32) (x1 : Vec F S5000x1 .f32) (x2 : Vec F S5000x128 .f32) (xo4 : Vec F S1x128 .f32) (xo5 : Vec F S1x128 .f32) :
    out2_B_4 c i a1 h1 a2 h2 a3 h3 a4 h4 a5 h5 a6 h6 hc x0 x1 x2 xo4 xo5 = k2_pay4 x1 x0 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  sl_unfold_words
  rw [View.canon_unit_zero hz]
  simp only [View.readAt_eq_ld, h1.read_unread, h2.read_unread, h3.read_unread, h5.read_unread, h6.read_unread, View.ld_unit_zero (S := S5000x128) hz, View.ld_unit_zero (S := S5000x1) hz, View.ld_unit_zero (S := S1x128) hz]

/-- Later point: the same for the column sums of squares. -/
theorem pieceB5 (c : Dev nD) (i : grid2.Coords) (a1 : Memref sig .tc .vmem S5000x128 .f32) (h1 : a1.IsWhole) (a2 : Memref sig .tc .vmem S5000x1 .f32) (h2 : a2.IsWhole) (a3 : Memref sig .tc .vmem S5000x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S5000x128 .f32) (x1 : Vec F S5000x1 .f32) (x2 : Vec F S5000x128 .f32) (xo4 : Vec F S1x128 .f32) (xo5 : Vec F S1x128 .f32) :
    out2_B_5 c i a1 h1 a2 h2 a3 h3 a4 h4 a5 h5 a6 h6 hc x0 x1 x2 xo4 xo5 = k2_pay5 x1 x0 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  sl_unfold_words
  rw [View.canon_unit_zero hz]
  simp only [View.readAt_eq_ld, h1.read_unread, h2.read_unread, h3.read_unread, h5.read_unread, h6.read_unread, View.ld_unit_zero (S := S5000x128) hz, View.ld_unit_zero (S := S5000x1) hz, View.ld_unit_zero (S := S1x128) hz]

end Pieces

/-! ## The body's values at an entry, over the extended reals -/

section Payload

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The message block as one tree of operations of the three blocks. -/
theorem pay3_eq (v3 : FVec Ideal S5000x1 .f32) (v9 v13 : FVec Ideal S5000x128 .f32) :
    k2_pay3 (F := Ideal) v3 v9 v13
      = subf (divf v9 (broadcastTo S5000x128 (maximumf v3 (broadcast S5000x1 Cert.Spec.one)) broadcasts_S5000x1_S5000x128))
          (mulf (broadcastTo S5000x128 (minimumf v3 (broadcast S5000x1 Cert.Spec.one)) broadcasts_S5000x1_S5000x128) v13) := by
  unfold k2_pay3
  simp only [shapeCast_self]
  rfl

/-- The message block at row `r`, column `k`. -/
theorem pay3_at (v3 : FVec Ideal S5000x1 .f32) (v9 v13 : FVec Ideal S5000x128 .f32) (r : Fin 5000) (k : Fin 128) :
    k2_pay3 (F := Ideal) v3 v9 v13 (ix2 r k)
      = Ideal.div (v9 (ix2 r k)) (max (v3 (ix2 r 0)) Cert.Spec.one) - min (v3 (ix2 r 0)) Cert.Spec.one * v13 (ix2 r k) := by
  rw [pay3_eq, subf_apply, divf_apply, mulf_apply, broadcastTo_a1_ab_apply, broadcastTo_a1_ab_apply, maximumf_apply,
    minimumf_apply, broadcast_apply]

/-- A column sum of a `[5000, 128]` block, at column `k`. -/
theorem colsum_at (src : FVec Ideal S5000x128 .f32) (hacc : (0x00000000#32 : BitVec 32) = 0x00000000#32) (k : Fin 128) :
    multiReduction (F := Ideal) .add [0] S128 src 0x00000000#32 reduces_S5000x128_S128 (.inl rfl) hacc (ix1 k)
      = ∑ r : Fin 5000, src (ix2 r k) := by
  refine (Ideal.multiReduction_add_single src 0x00000000#32 reduces_S5000x128_S128 (.inl rfl) hacc (ix1 k)).trans ?_
  show ∑ r : Fin 5000, src (reduces_S5000x128_S128.lift (ix1 k) r) = _
  refine Finset.sum_congr rfl fun r _ => congrArg src ?_
  funext a
  match a with
  | ⟨0, _⟩ => rfl
  | ⟨1, _⟩ => rfl

/-- The running column sums after a block: what was there plus the block's column sums. -/
theorem pay4_at (v3 : FVec Ideal S5000x1 .f32) (v9 v13 : FVec Ideal S5000x128 .f32) (v19 : FVec Ideal S1x128 .f32)
    (u : Fin 1) (k : Fin 128) :
    k2_pay4 (F := Ideal) v3 v9 v13 v19 (ix2 u k)
      = v19 (ix2 u k) + ∑ r : Fin 5000, k2_pay3 (F := Ideal) v3 v9 v13 (ix2 r k) := by
  unfold k2_pay4
  simp only [shapeCast_self]
  rw [addf_apply, shapeCast_a_1a_apply, colsum_at]

/-- The running column sums of squares after a block. -/
theorem pay5_at (v3 : FVec Ideal S5000x1 .f32) (v9 v13 : FVec Ideal S5000x128 .f32) (v25 : FVec Ideal S1x128 .f32)
    (u : Fin 1) (k : Fin 128) :
    k2_pay5 (F := Ideal) v3 v9 v13 v25 (ix2 u k)
      = v25 (ix2 u k) + ∑ r : Fin 5000, k2_pay3 (F := Ideal) v3 v9 v13 (ix2 r k) * k2_pay3 (F := Ideal) v3 v9 v13 (ix2 r k) := by
  unfold k2_pay5
  simp only [shapeCast_self]
  rw [addf_apply, shapeCast_a_1a_apply, colsum_at]
  rfl

end Payload

/-! ## The input blocks are row stretches of the arrays -/

section Blocks

/-- The three input blocks at a grid point, by their literal types. -/
abbrev sB (c : Dev nD) (t : Fin cfg2.N) : FVec Ideal S5000x128 .f32 := iblk2 V c 0 t
abbrev cB (c : Dev nD) (t : Fin cfg2.N) : FVec Ideal S5000x1 .f32 := iblk2 V c 1 t
abbrev qB (c : Dev nD) (t : Fin cfg2.N) : FVec Ideal S5000x128 .f32 := iblk2 V c 2 t

/-- The windows' block indices over the grid: the row-blocked windows sit at block row `t`, the two accumulators'
    one block never moves. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row `r` of the sums' block `t` is row `5000 t + r` of the sums. -/
theorem sB_at (c : Dev nD) (t : Fin cfg2.N) (r : Fin 5000) (k : Fin 128) (hq : 5000 * t.val + r.val < 50000) :
    sB V c t (ix2 r k) = sA V c (ix2 ⟨5000 * t.val + r.val, hq⟩ k) := by
  obtain ⟨e0, e1, -⟩ := idx_facts t
  show iblk2 V c 0 t (ix2 r k) = V c main_v17 _
  unfold iblk2
  rw [View.read_apply]
  show V c main_v17 _ = V c main_v17 _
  congr 1
  funext a
  apply Fin.ext
  match a with
  | ⟨0, _⟩ => show win2_0.index t 0 * 5000 + 1 * r.val = 5000 * t.val + r.val; rw [e0]; omega
  | ⟨1, _⟩ => show win2_0.index t 1 * 128 + 1 * k.val = k.val; rw [e1]; omega

/-- Row `r` of the counts' block `t` is row `5000 t + r` of the counts. -/
theorem cB_at (c : Dev nD) (t : Fin cfg2.N) (r : Fin 5000) (k : Fin 1) (hq : 5000 * t.val + r.val < 50000) :
    cB V c t (ix2 r k) = cA V c (ix2 ⟨5000 * t.val + r.val, hq⟩ k) := by
  obtain ⟨-, -, e0, e1, -⟩ := idx_facts t
  show iblk2 V c 1 t (ix2 r k) = V c main_v22 _
  unfold iblk2
  rw [View.read_apply]
  show V c main_v22 _ = V c main_v22 _
  congr 1
  funext a
  apply Fin.ext
  match a with
  | ⟨0, _⟩ => show win2_1.index t 0 * 5000 + 1 * r.val = 5000 * t.val + r.val; rw [e0]; omega
  | ⟨1, _⟩ => show win2_1.index t 1 * 1 + 1 * k.val = k.val; rw [e1]; omega

/-- Row `r` of the query maps' block `t` is row `5000 t + r` of the query maps. -/
theorem qB_at (c : Dev nD) (t : Fin cfg2.N) (r : Fin 5000) (k : Fin 128) (hq : 5000 * t.val + r.val < 50000) :
    qB V c t (ix2 r k) = qA V c (ix2 ⟨5000 * t.val + r.val, hq⟩ k) := by
  obtain ⟨-, -, -, -, e0, e1, -⟩ := idx_facts t
  show iblk2 V c 2 t (ix2 r k) = V c main_v7 _
  unfold iblk2
  rw [View.read_apply]
  show V c main_v7 _ = V c main_v7 _
  congr 1
  funext a
  apply Fin.ext
  match a with
  | ⟨0, _⟩ => show win2_2.index t 0 * 5000 + 1 * r.val = 5000 * t.val + r.val; rw [e0]; omega
  | ⟨1, _⟩ => show win2_2.index t 1 * 128 + 1 * k.val = k.val; rw [e1]; omega

/-- THE MESSAGE of block `t` at its row `r` is the message of query `5000 t + r`. -/
theorem msg_at (c : Dev nD) (t : Fin cfg2.N) (r : Fin 5000) (k : Fin 128) (hq : 5000 * t.val + r.val < 50000) :
    k2_pay3 (F := Ideal) (cB V c t) (sB V c t) (qB V c t) (ix2 r k)
      = Cert.Spec.featT (sA V c) (cA V c) (qA V c) ⟨5000 * t.val + r.val, hq⟩ k := by
  rw [pay3_at, sB_at V c t r k hq, cB_at V c t r 0 hq, qB_at V c t r k hq]
  rfl

/-- In both control cases the message block a point leaves is the body's value of the point's three blocks. -/
theorem out3_eq (c : Dev nD) (t : Fin cfg2.N) :
    (outsAt2 V c t.val t.isLt).1 = k2_pay3 (F := Ideal) (cB V c t) (sB V c t) (qB V c t) := by
  by_cases h0 : t.val % 10 = 0
  · rw [outsAt2_A V c t h0]
    dsimp only
    exact pieceA3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (sB V c t) (cB V c t) (qB V c t)
  · rw [outsAt2_B V c t h0]
    dsimp only
    exact pieceB3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (sB V c t) (cB V c t) (qB V c t)
      (outsAt2 V c (t.val - 1) (Nat.lt_of_le_of_lt (Nat.sub_le _ _) t.isLt)).2.1 (outsAt2 V c (t.val - 1) (Nat.lt_of_le_of_lt (Nat.sub_le _ _) t.isLt)).2.2

end Blocks

/-! ## The message array -/

section Messages

/-- What point `t` writes back to the message array is block `t` of the messages. -/
theorem flushed3_eq (c : Dev nD) (t : Fin cfg2.N) :
    (dat2 V c).flushed 3 t
      = ((cfg2.win 3).blk t).view.read (Elt Ideal) (fun i => Cert.Spec.featT (sA V c) (cA V c) (qA V c) (i 0) (i 1)) := by
  show (cfg2.win 3).cut (grid2.coords t) ((dat2 V c).after 3 t) = _
  rw [after2_3, out3_eq]
  funext j
  have hr : (j 0).val < 5000 := (j 0).isLt
  have hk : (j 1).val < 128 := (j 1).isLt
  have hN : t.val < 10 := lt_of_lt_of_eq t.isLt N_2
  obtain ⟨-, -, -, -, -, -, e0, e1, -⟩ := idx_facts t
  have ej : (j : S5000x128.Idx) = ix2 (⟨(j 0).val, hr⟩ : Fin 5000) (⟨(j 1).val, hk⟩ : Fin 128) := by
    funext a
    match a with
    | ⟨0, _⟩ => rfl
    | ⟨1, _⟩ => rfl
  show k2_pay3 (F := Ideal) (cB V c t) (sB V c t) (qB V c t) j
    = Cert.Spec.featT (sA V c) (cA V c) (qA V c) ((((cfg2.win 3).blk t).view.emb j) 0) ((((cfg2.win 3).blk t).view.emb j) 1)
  refine (congrArg (k2_pay3 (F := Ideal) (cB V c t) (sB V c t) (qB V c t)) ej).trans ?_
  refine (msg_at V c t ⟨(j 0).val, hr⟩ ⟨(j 1).val, hk⟩ (by show 5000 * t.val + (j 0).val < 50000; omega)).trans ?_
  refine congrArg₂ (Cert.Spec.featT (sA V c) (cA V c) (qA V c)) (Fin.ext ?_) (Fin.ext ?_)
  · show 5000 * t.val + (j 0).val = win2_3.index t 0 * 5000 + 1 * (j 0).val
    rw [e0]; omega
  · show (j 1).val = win2_3.index t 1 * 128 + 1 * (j 1).val
    rw [e1]; omega

/-- An entry of the message array is in point `t`'s block iff each coordinate is in the block's range. -/
theorem mem_blk3 (t : Fin cfg2.N) (i : S50000x128.Idx) :
    i ∈ ((cfg2.win 3).blk t).view.set
      ↔ ∀ a : Fin 2, win2_3.index t a * S5000x128.size a ≤ (i a).val
          ∧ (i a).val < win2_3.index t a * S5000x128.size a + S5000x128.size a := by
  show i ∈ ((View.whole main_v23_0).slice (win2_3.rect t)).set ↔ _
  rw [View.set_slice_whole, Rect.mem_set_unit]
  exact Iff.rfl

/-- Row `q` of the message array is written back by point `q / 5000`. -/
theorem cover3 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, e0, e1, -⟩ := idx_facts t
  refine ⟨t, flush2_3 t, ?_⟩
  rw [mem_blk3]
  intro a
  match a with
  | ⟨0, _⟩ =>
    show win2_3.index t 0 * 5000 ≤ (i 0).val ∧ (i 0).val < win2_3.index t 0 * 5000 + 5000
    rw [e0, ht]; omega
  | ⟨1, _⟩ =>
    show win2_3.index t 1 * 128 ≤ (i 1).val ∧ (i 1).val < win2_3.index t 1 * 128 + 128
    rw [e1]; omega

/-- THE MESSAGE ARRAY after the region, entry by entry. -/
theorem value3 (c : Dev nD) :
    (dat2 V c).arrAt 3 cfg2.N = fun i => Cert.Spec.featT (sA V c) (cA V c) (qA V c) (i 0) (i 1) :=
  (dat2 V c).arrAt_eq_of_cover 3 _ (fun t _ => flushed3_eq V c t) (cover3)

end Messages

/-! ## Sums over the first rows, block by block -/

section Sums

/-- A function of the queries as a function of every natural, zero past the last query. -/
def extN (f : Fin 50000 → EReal) (q : ℕ) : EReal := if h : q < 50000 then f ⟨q, h⟩ else 0

/-- Summed over the first `50000` naturals it is the sum over the queries. -/
theorem sum_extN (f : Fin 50000 → EReal) : ∑ q ∈ Finset.range 50000, extN f q = ∑ q : Fin 50000, f q := by
  rw [Finset.sum_range]
  refine Finset.sum_congr rfl fun q _ => ?_
  unfold extN
  rw [dif_pos q.isLt]

/-- One more block of `5000` rows. -/
theorem range_step (g : ℕ → EReal) (n : ℕ) :
    ∑ q ∈ Finset.range (5000 * (n + 1)), g q
      = ∑ q ∈ Finset.range (5000 * n), g q + ∑ x ∈ Finset.range 5000, g (5000 * n + x) := by
  rw [Nat.mul_succ, Finset.sum_range_add]

end Sums

/-! ## The two accumulators after each grid point -/

section Accumulators

/-- The message of query `q` at column `k`, and its square. -/
abbrev msgQ (c : Dev nD) (k : Fin 128) (q : Fin 50000) : EReal := Cert.Spec.featT (sA V c) (cA V c) (qA V c) q k
abbrev sqQ (c : Dev nD) (k : Fin 128) (q : Fin 50000) : EReal :=
  Cert.Spec.featT (sA V c) (cA V c) (qA V c) q k * Cert.Spec.featT (sA V c) (cA V c) (qA V c) q k

/-- Block `t`'s column sum of messages is the sum of the messages of queries `5000 t … 5000 t + 4999`. -/
theorem blocksum4 (c : Dev nD) (t : Fin cfg2.N) (k : Fin 128) :
    ∑ r : Fin 5000, k2_pay3 (F := Ideal) (cB V c t) (sB V c t) (qB V c t) (ix2 r k)
      = ∑ x ∈ Finset.range 5000, extN (msgQ V c k) (5000 * t.val + x) := by
  have hN : t.val < 10 := lt_of_lt_of_eq t.isLt N_2
  rw [Finset.sum_range]
  refine Finset.sum_congr rfl fun r _ => ?_
  have hq : 5000 * t.val + r.val < 50000 := by have := r.isLt; omega
  rw [msg_at V c t r k hq]
  unfold extN
  rw [dif_pos hq]

/-- The same for the squares. -/
theorem blocksum5 (c : Dev nD) (t : Fin cfg2.N) (k : Fin 128) :
    ∑ r : Fin 5000, k2_pay3 (F := Ideal) (cB V c t) (sB V c t) (qB V c t) (ix2 r k)
        * k2_pay3 (F := Ideal) (cB V c t) (sB V c t) (qB V c t) (ix2 r k)
      = ∑ x ∈ Finset.range 5000, extN (sqQ V c k) (5000 * t.val + x) := by
  have hN : t.val < 10 := lt_of_lt_of_eq t.isLt N_2
  rw [Finset.sum_range]
  refine Finset.sum_congr rfl fun r _ => ?_
  have hq : 5000 * t.val + r.val < 50000 := by have := r.isLt; omega
  rw [msg_at V c t r k hq]
  unfold extN
  rw [dif_pos hq]

/-- At the first point the column sums are reset to zero and then take the block's column sums. -/
theorem acc4_A (c : Dev nD) (t : Fin cfg2.N) (h0 : t.val % 10 = 0) (u : Fin 1) (k : Fin 128) :
    (outsAt2 V c t.val t.isLt).2.1 (ix2 u k)
      = 0 + ∑ r : Fin 5000, k2_pay3 (F := Ideal) (cB V c t) (sB V c t) (qB V c t) (ix2 r k) := by
  rw [outsAt2_A V c t h0]
  dsimp only
  refine (congrFun (pieceA4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (sB V c t) (cB V c t) (qB V c t)) (ix2 u k)).trans ?_
  refine (pay4_at (cB V c t) (sB V c t) (qB V c t) (k2_pay1 (F := Ideal)) u k).trans ?_
  exact congrArg (· + _) Ideal.ofBits_zero_f32

/-- The same for the column sums of squares. -/
theorem acc5_A (c : Dev nD) (t : Fin cfg2.N) (h0 : t.val % 10 = 0) (u : Fin 1) (k : Fin 128) :
    (outsAt2 V c t.val t.isLt).2.2 (ix2 u k)
      = 0 + ∑ r : Fin 5000, k2_pay3 (F := Ideal) (cB V c t) (sB V c t) (qB V c t) (ix2 r k)
          * k2_pay3 (F := Ideal) (cB V c t) (sB V c t) (qB V c t) (ix2 r k) := by
  rw [outsAt2_A V c t h0]
  dsimp only
  refine (congrFun (pieceA5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (sB V c t) (cB V c t) (qB V c t)) (ix2 u k)).trans ?_
  refine (pay5_at (cB V c t) (sB V c t) (qB V c t) (k2_pay2 (F := Ideal)) u k).trans ?_
  exact congrArg (· + _) Ideal.ofBits_zero_f32

/-- At every later point they grow by the block's column sums. -/
theorem acc4_B (c : Dev nD) (t : Fin cfg2.N) (h0 : ¬t.val % 10 = 0) (u : Fin 1) (k : Fin 128) :
    (outsAt2 V c t.val t.isLt).2.1 (ix2 u k)
      = (outsAt2 V c (t.val - 1) (Nat.lt_of_le_of_lt (Nat.sub_le _ _) t.isLt)).2.1 (ix2 u k)
        + ∑ r : Fin 5000, k2_pay3 (F := Ideal) (cB V c t) (sB V c t) (qB V c t) (ix2 r k) := by
  rw [outsAt2_B V c t h0]
  dsimp only
  refine (congrFun (pieceB4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (sB V c t) (cB V c t) (qB V c t)
    (outsAt2 V c (t.val - 1) (Nat.lt_of_le_of_lt (Nat.sub_le _ _) t.isLt)).2.1 (outsAt2 V c (t.val - 1) (Nat.lt_of_le_of_lt (Nat.sub_le _ _) t.isLt)).2.2) (ix2 u k)).trans ?_
  exact pay4_at (cB V c t) (sB V c t) (qB V c t) (outsAt2 V c (t.val - 1) (Nat.lt_of_le_of_lt (Nat.sub_le _ _) t.isLt)).2.1 u k

/-- The same for the column sums of squares. -/
theorem acc5_B (c : Dev nD) (t : Fin cfg2.N) (h0 : ¬t.val % 10 = 0) (u : Fin 1) (k : Fin 128) :
    (outsAt2 V c t.val t.isLt).2.2 (ix2 u k)
      = (outsAt2 V c (t.val - 1) (Nat.lt_of_le_of_lt (Nat.sub_le _ _) t.isLt)).2.2 (ix2 u k)
        + ∑ r : Fin 5000, k2_pay3 (F := Ideal) (cB V c t) (sB V c t) (qB V c t) (ix2 r k)
            * k2_pay3 (F := Ideal) (cB V c t) (sB V c t) (qB V c t) (ix2 r k) := by
  rw [outsAt2_B V c t h0]
  dsimp only
  refine (congrFun (pieceB5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (sB V c t) (cB V c t) (qB V c t)
    (outsAt2 V c (t.val - 1) (Nat.lt_of_le_of_lt (Nat.sub_le _ _) t.isLt)).2.1 (outsAt2 V c (t.val - 1) (Nat.lt_of_le_of_lt (Nat.sub_le _ _) t.isLt)).2.2) (ix2 u k)).trans ?_
  exact pay5_at (cB V c t) (sB V c t) (qB V c t) (outsAt2 V c (t.val - 1) (Nat.lt_of_le_of_lt (Nat.sub_le _ _) t.isLt)).2.2 u k

/-- THE INVARIANT: after point `n` the column sums hold the sum of the messages of the first `5000 (n + 1)` queries. -/
theorem acc4_eq (c : Dev nD) : ∀ (n : ℕ) (hn : n < cfg2.N) (u : Fin 1) (k : Fin 128),
    (outsAt2 V c n hn).2.1 (ix2 u k) = ∑ q ∈ Finset.range (5000 * (n + 1)), extN (msgQ V c k) q
  | 0, hn, u, k => by
    rw [range_step, Nat.mul_zero, Finset.range_zero, Finset.sum_empty]
    exact (acc4_A V c ⟨0, hn⟩ rfl u k).trans (congrArg (0 + ·) (blocksum4 V c ⟨0, hn⟩ k))
  | n + 1, hn, u, k => by
    have hN : n + 1 < 10 := lt_of_lt_of_eq hn N_2
    have hB : ¬(⟨n + 1, hn⟩ : Fin cfg2.N).val % 10 = 0 := by dsimp only; omega
    rw [range_step]
    refine (acc4_B V c ⟨n + 1, hn⟩ hB u k).trans ?_
    rw [blocksum4 V c ⟨n + 1, hn⟩ k]
    show (outsAt2 V c n _).2.1 (ix2 u k) + _ = _
    rw [acc4_eq c n]

/-- The same for the squares. -/
theorem acc5_eq (c : Dev nD) : ∀ (n : ℕ) (hn : n < cfg2.N) (u : Fin 1) (k : Fin 128),
    (outsAt2 V c n hn).2.2 (ix2 u k) = ∑ q ∈ Finset.range (5000 * (n + 1)), extN (sqQ V c k) q
  | 0, hn, u, k => by
    rw [range_step, Nat.mul_zero, Finset.range_zero, Finset.sum_empty]
    exact (acc5_A V c ⟨0, hn⟩ rfl u k).trans (congrArg (0 + ·) (blocksum5 V c ⟨0, hn⟩ k))
  | n + 1, hn, u, k => by
    have hN : n + 1 < 10 := lt_of_lt_of_eq hn N_2
    have hB : ¬(⟨n + 1, hn⟩ : Fin cfg2.N).val % 10 = 0 := by dsimp only; omega
    rw [range_step]
    refine (acc5_B V c ⟨n + 1, hn⟩ hB u k).trans ?_
    rw [blocksum5 V c ⟨n + 1, hn⟩ k]
    show (outsAt2 V c n _).2.2 (ix2 u k) + _ = _
    rw [acc5_eq c n]

end Accumulators

/-! ## The accumulators' arrays after the region -/

section Finals

/-- The one write-back of accumulator 4, at the last point, writes the sums over all queries: stated for any row `G`
    that holds those sums. -/
theorem flushed4_of (c : Dev nD) (t : Fin cfg2.N) (hf : (cfg2.win 4).flush t = true) (G : FVec Ideal S1x128 .f32)
    (hG : ∀ (u : Fin 1) (k : Fin 128), G (ix2 u k) = ∑ q : Fin 50000, msgQ V c k q) :
    (dat2 V c).flushed 4 t = ((cfg2.win 4).blk t).view.read (Elt Ideal) G := by
  have hN : t.val < 10 := lt_of_lt_of_eq t.isLt N_2
  have h9 : t.val % 10 = 9 := (flush2_4 t).mp hf
  show (cfg2.win 4).cut (grid2.coords t) ((dat2 V c).after 4 t) = _
  rw [after2_4]
  funext j
  have hu : (j 0).val < 1 := (j 0).isLt
  have hk : (j 1).val < 128 := (j 1).isLt
  obtain ⟨-, -, -, -, -, -, -, -, e0, e1, -⟩ := idx_facts t
  have ej : (j : S1x128.Idx) = ix2 (⟨(j 0).val, hu⟩ : Fin 1) (⟨(j 1).val, hk⟩ : Fin 128) := by
    funext a
    match a with
    | ⟨0, _⟩ => rfl
    | ⟨1, _⟩ => rfl
  have eemb : (((cfg2.win 4).blk t).view.emb j : S1x128.Idx) = ix2 (⟨(j 0).val, hu⟩ : Fin 1) (⟨(j 1).val, hk⟩ : Fin 128) := by
    funext a
    apply Fin.ext
    match a with
    | ⟨0, _⟩ =>
      show win2_4.index t 0 * 1 + 1 * (j 0).val = (j 0).val
      rw [e0]; omega
    | ⟨1, _⟩ =>
      show win2_4.index t 1 * 128 + 1 * (j 1).val = (j 1).val
      rw [e1]; omega
  show (outsAt2 V c t.val t.isLt).2.1 j = G (((cfg2.win 4).blk t).view.emb j)
  refine (congrArg (outsAt2 V c t.val t.isLt).2.1 ej).trans ?_
  refine (acc4_eq V c t.val t.isLt ⟨(j 0).val, hu⟩ ⟨(j 1).val, hk⟩).trans ?_
  have h50 : 5000 * (t.val + 1) = 50000 := by omega
  rw [h50, sum_extN]
  exact ((congrArg G eemb).trans (hG ⟨(j 0).val, hu⟩ ⟨(j 1).val, hk⟩)).symm

/-- An entry of accumulator 4's array is in point `t`'s block iff each coordinate is in the block's range. -/
theorem mem_blk4 (t : Fin cfg2.N) (i : S1x128.Idx) :
    i ∈ ((cfg2.win 4).blk t).view.set
      ↔ ∀ a : Fin 2, win2_4.index t a * S1x128.size a ≤ (i a).val
          ∧ (i a).val < win2_4.index t a * S1x128.size a + S1x128.size a := by
  show i ∈ ((View.whole main_v23_1).slice (win2_4.rect t)).set ↔ _
  rw [View.set_slice_whole, Rect.mem_set_unit]
  exact Iff.rfl

/-- The last point's block is the whole `[1, 128]` array. -/
theorem cover4 (i : S1x128.Idx) :
    ∃ t : Fin cfg2.N, (cfg2.win 4).flush t = true ∧ i ∈ ((cfg2.win 4).blk t).view.set := by
  have hi0 : (i 0).val < 1 := (i 0).isLt
  have hi1 : (i 1).val < 128 := (i 1).isLt
  obtain ⟨-, -, -, -, -, -, -, -, e0, e1, -⟩ := idx_facts t2_9
  refine ⟨t2_9, (flush2_4 t2_9).mpr rfl, ?_⟩
  rw [mem_blk4]
  intro a
  match a with
  | ⟨0, _⟩ =>
    show win2_4.index t2_9 0 * 1 ≤ (i 0).val ∧ (i 0).val < win2_4.index t2_9 0 * 1 + 1
    rw [e0]; omega
  | ⟨1, _⟩ =>
    show win2_4.index t2_9 1 * 128 ≤ (i 1).val ∧ (i 1).val < win2_4.index t2_9 1 * 128 + 128
    rw [e1]; omega

/-- The one write-back of accumulator 5, at the last point, writes the sums over all queries: stated for any row `G`
    that holds those sums. -/
theorem flushed5_of (c : Dev nD) (t : Fin cfg2.N) (hf : (cfg2.win 5).flush t = true) (G : FVec Ideal S1x128 .f32)
    (hG : ∀ (u : Fin 1) (k : Fin 128), G (ix2 u k) = ∑ q : Fin 50000, sqQ V c k q) :
    (dat2 V c).flushed 5 t = ((cfg2.win 5).blk t).view.read (Elt Ideal) G := by
  have hN : t.val < 10 := lt_of_lt_of_eq t.isLt N_2
  have h9 : t.val % 10 = 9 := (flush2_5 t).mp hf
  show (cfg2.win 5).cut (grid2.coords t) ((dat2 V c).after 5 t) = _
  rw [after2_5]
  funext j
  have hu : (j 0).val < 1 := (j 0).isLt
  have hk : (j 1).val < 128 := (j 1).isLt
  obtain ⟨-, -, -, -, -, -, -, -, -, -, e0, e1⟩ := idx_facts t
  have ej : (j : S1x128.Idx) = ix2 (⟨(j 0).val, hu⟩ : Fin 1) (⟨(j 1).val, hk⟩ : Fin 128) := by
    funext a
    match a with
    | ⟨0, _⟩ => rfl
    | ⟨1, _⟩ => rfl
  have eemb : (((cfg2.win 5).blk t).view.emb j : S1x128.Idx) = ix2 (⟨(j 0).val, hu⟩ : Fin 1) (⟨(j 1).val, hk⟩ : Fin 128) := by
    funext a
    apply Fin.ext
    match a with
    | ⟨0, _⟩ =>
      show win2_5.index t 0 * 1 + 1 * (j 0).val = (j 0).val
      rw [e0]; omega
    | ⟨1, _⟩ =>
      show win2_5.index t 1 * 128 + 1 * (j 1).val = (j 1).val
      rw [e1]; omega
  show (outsAt2 V c t.val t.isLt).2.2 j = G (((cfg2.win 5).blk t).view.emb j)
  refine (congrArg (outsAt2 V c t.val t.isLt).2.2 ej).trans ?_
  refine (acc5_eq V c t.val t.isLt ⟨(j 0).val, hu⟩ ⟨(j 1).val, hk⟩).trans ?_
  have h50 : 5000 * (t.val + 1) = 50000 := by omega
  rw [h50, sum_extN]
  exact ((congrArg G eemb).trans (hG ⟨(j 0).val, hu⟩ ⟨(j 1).val, hk⟩)).symm

/-- An entry of accumulator 5's array is in point `t`'s block iff each coordinate is in the block's range. -/
theorem mem_blk5 (t : Fin cfg2.N) (i : S1x128.Idx) :
    i ∈ ((cfg2.win 5).blk t).view.set
      ↔ ∀ a : Fin 2, win2_5.index t a * S1x128.size a ≤ (i a).val
          ∧ (i a).val < win2_5.index t a * S1x128.size a + S1x128.size a := by
  show i ∈ ((View.whole main_v23_2).slice (win2_5.rect t)).set ↔ _
  rw [View.set_slice_whole, Rect.mem_set_unit]
  exact Iff.rfl

/-- The last point's block is the whole `[1, 128]` array. -/
theorem cover5 (i : S1x128.Idx) :
    ∃ t : Fin cfg2.N, (cfg2.win 5).flush t = true ∧ i ∈ ((cfg2.win 5).blk t).view.set := by
  have hi0 : (i 0).val < 1 := (i 0).isLt
  have hi1 : (i 1).val < 128 := (i 1).isLt
  obtain ⟨-, -, -, -, -, -, -, -, -, -, e0, e1⟩ := idx_facts t2_9
  refine ⟨t2_9, (flush2_5 t2_9).mpr rfl, ?_⟩
  rw [mem_blk5]
  intro a
  match a with
  | ⟨0, _⟩ =>
    show win2_5.index t2_9 0 * 1 ≤ (i 0).val ∧ (i 0).val < win2_5.index t2_9 0 * 1 + 1
    rw [e0]; omega
  | ⟨1, _⟩ =>
    show win2_5.index t2_9 1 * 128 ≤ (i 1).val ∧ (i 1).val < win2_5.index t2_9 1 * 128 + 128
    rw [e1]; omega

/-- THE COLUMN SUMS after the region. -/
theorem value4 (c : Dev nD) :
    (dat2 V c).arrAt 4 cfg2.N = fun i => Cert.Spec.sumT (sA V c) (cA V c) (qA V c) (i 1) :=
  (dat2 V c).arrAt_eq_of_cover 4 _ (fun t hf => flushed4_of V c t hf _ fun u k => rfl) cover4

/-- THE COLUMN SUMS OF SQUARES after the region. -/
theorem value5 (c : Dev nD) :
    (dat2 V c).arrAt 5 cfg2.N = fun i => Cert.Spec.sumsqT (sA V c) (cA V c) (qA V c) (i 1) :=
  (dat2 V c).arrAt_eq_of_cover 5 _ (fun t hf => flushed5_of V c t hf _ fun u k => rfl) cover5

end Finals

end Cert.KernelIdeal.R2

end
-- ==== Proof.R3.lean ====
/-
  The fourth kernel's result array, read off its run: row block `t` of the output is the body's pointwise value of row
  block `t` of the messages and of the four `[1, 128]` rows (column sums, column sums of squares, scale, shift).
-/
import proofs.«426789_j68745246539912_1_alg».proof.Proof.Gen.KernelIdeal.Frame
import proofs.«426789_j68745246539912_1_alg».proof.Proof.SpecT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body at an entry

Every operation of the body is pointwise: the column mean `s/n` and the mean of squares `ss/n` are formed on the
`[1, 128]` rows, the variance `ss/n − (s/n)²` gets the small constant added and its inverse square root taken, and the
rows are then spread over the block's 5000 rows. -/
/-- The body's value at entry `(p, q)` of its block: every operation is pointwise, the four rows are read at column `q`. -/
theorem pay_apply (v0 v4 : Vec Ideal S1x128 .f32) (v13 : Vec Ideal S5000x128 .f32) (v19 v23 : Vec Ideal S1x128 .f32)
    (p : Fin 5000) (q : Fin 128) :
    k3_pay1 (F := Ideal) v0 v4 v13 v19 v23 (ix2 p q)
      = max ((((v13 (ix2 p q) - Ideal.div (v0 (ix2 0 q)) Cert.Spec.cntM)
          * Ideal.rsqrt ((Ideal.div (v4 (ix2 0 q)) Cert.Spec.cntM
              - Ideal.div (v0 (ix2 0 q)) Cert.Spec.cntM * Ideal.div (v0 (ix2 0 q)) Cert.Spec.cntM) + Cert.Spec.eps))
        * v19 (ix2 0 q)) + v23 (ix2 0 q)) 0 := by
  unfold k3_pay1
  simp only [shapeCast_self, maximumf_apply, addf_apply, mulf_apply, subf_apply, broadcast_apply, broadcastTo_1b_ab_apply]
  refine (congrArg (max _) Ideal.ofBits_zero_f32).trans ?_
  rfl

theorem point_eq (Fm : FVec Ideal S50000x128 .f32) (Sm SSm Gm Bm : FVec Ideal S1x128 .f32)
    (x0 : Vec Ideal S5000x128 .f32) (x1 x2 x3 x4 : Vec Ideal S1x128 .f32) (p : Fin 5000) (q : Fin 128) (r : Fin 50000)
    (h0 : x0 (ix2 p q) = Fm (ix2 r q)) (h1 : x1 (ix2 0 q) = Sm (ix2 0 q)) (h2 : x2 (ix2 0 q) = SSm (ix2 0 q))
    (h3 : x3 (ix2 0 q) = Gm (ix2 0 q)) (h4 : x4 (ix2 0 q) = Bm (ix2 0 q)) :
    k3_pay1 (F := Ideal) x1 x2 x0 x3 x4 (ix2 p q) = Cert.Spec.normT Fm Sm SSm Gm Bm r q := by
  rw [pay_apply, h0, h1, h2, h3, h4]
  rfl

/-! ## From blocks to the array -/

-- the TensorCore's buffer contents when the region is entered: a parameter
variable (V : (c : Dev nD) → (b : Ref sig .tc) → Buf (Elt Ideal) ((c : Thread nD τ).loc b))

/-- The arrays the region finds, by their literal types. -/
abbrev fA (c : Dev nD) : FVec Ideal S50000x128 .f32 := V c main_v23_0
abbrev sumA (c : Dev nD) : FVec Ideal S1x128 .f32 := V c main_v23_1
abbrev ssqA (c : Dev nD) : FVec Ideal S1x128 .f32 := V c main_v23_2
abbrev gA (c : Dev nD) : FVec Ideal S1x128 .f32 := V c main_v4
abbrev bA (c : Dev nD) : FVec Ideal S1x128 .f32 := V c main_v5

theorem hz : (![0, 0] : Fin 2 → Nat) = fun _ => 0 := funext fun a => by fin_cases a <;> rfl

/-- Where the blocks sit, at every grid point `t`: the messages' and the output's block is row block `t` (all columns);
    each of the four rows' block is its whole array. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the normalised messages of the arrays the region was entered with: entry
    `(p, q)` of the block is row `5000·t + p` of the array, that row of the messages is row `p` of the messages' block,
    and each row's block is the row itself. -/
theorem flushed_eq (c : Dev nD) (t : Fin cfg3.N) :
    (dat3 V c).flushed 5 t = ((cfg3.win 5).blk t).view.read (Elt Ideal)
      (fun i => Cert.Spec.normT (fA V c) (sumA V c) (ssqA V c) (gA V c) (bA V c) (i 0) (i 1)) := by
  show (cfg3.win 5).cut (grid3.coords t) ((dat3 V c).after 5 t) = _
  rw [after3_5]
  unfold out3_5
  rw [View.canon_unit_zero hz]
  simp only [View.ld_unit_zero (S := S1x128) hz, View.ld_unit_zero (S := S5000x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  show k3_pay1 (F := Ideal) (iblk3 V c 1 t) (iblk3 V c 2 t) (iblk3 V c 0 t) (iblk3 V c 3 t) (iblk3 V c 4 t) (ix2 p q)
    = Cert.Spec.normT (fA V c) (sumA V c) (ssqA V c) (gA V c) (bA V c)
        ((((cfg3.win 5).blk t).view.emb (ix2 p q)) 0) ((((cfg3.win 5).blk t).view.emb (ix2 p q)) 1)
  have hr : 5000 * t.val + p.val < 50000 := by
    have h1 : t.val < cfg3.N := t.isLt
    have hN : cfg3.N = 10 := N_3
    have h2 := p.isLt
    omega
  refine (point_eq (fA V c) (sumA V c) (ssqA V c) (gA V c) (bA V c) (iblk3 V c 0 t) (iblk3 V c 1 t) (iblk3 V c 2 t)
    (iblk3 V c 3 t) (iblk3 V c 4 t) p q ⟨5000 * t.val + p.val, hr⟩ ?_ ?_ ?_ ?_ ?_).trans ?_
  · show V c main_v23_0 (((cfg3.win 0).blk t).view.emb (ix2 p q)) = V c main_v23_0 (ix2 _ q)
    congr 1; funext a; apply Fin.ext
    match a with
    | ⟨0, _⟩ => show win3_0.index t (0 : Fin 2) * 5000 + 1 * p.val = 5000 * t.val + p.val; omega
    | ⟨1, _⟩ => show win3_0.index t (1 : Fin 2) * 128 + 1 * q.val = q.val; omega
  · show V c main_v23_1 (((cfg3.win 1).blk t).view.emb (ix2 0 q)) = V c main_v23_1 (ix2 0 q)
    congr 1; funext a; apply Fin.ext
    match a with
    | ⟨0, _⟩ => show win3_1.index t (0 : Fin 2) * 1 + 1 * 0 = 0; omega
    | ⟨1, _⟩ => show win3_1.index t (1 : Fin 2) * 128 + 1 * q.val = q.val; omega
  · show V c main_v23_2 (((cfg3.win 2).blk t).view.emb (ix2 0 q)) = V c main_v23_2 (ix2 0 q)
    congr 1; funext a; apply Fin.ext
    match a with
    | ⟨0, _⟩ => show win3_2.index t (0 : Fin 2) * 1 + 1 * 0 = 0; omega
    | ⟨1, _⟩ => show win3_2.index t (1 : Fin 2) * 128 + 1 * q.val = q.val; omega
  · show V c main_v4 (((cfg3.win 3).blk t).view.emb (ix2 0 q)) = V c main_v4 (ix2 0 q)
    congr 1; funext a; apply Fin.ext
    match a with
    | ⟨0, _⟩ => show win3_3.index t (0 : Fin 2) * 1 + 1 * 0 = 0; omega
    | ⟨1, _⟩ => show win3_3.index t (1 : Fin 2) * 128 + 1 * q.val = q.val; omega
  · show V c main_v5 (((cfg3.win 4).blk t).view.emb (ix2 0 q)) = V c main_v5 (ix2 0 q)
    congr 1; funext a; apply Fin.ext
    match a with
    | ⟨0, _⟩ => show win3_4.index t (0 : Fin 2) * 1 + 1 * 0 = 0; omega
    | ⟨1, _⟩ => show win3_4.index t (1 : Fin 2) * 128 + 1 * q.val = q.val; omega
  · congr 1 <;> apply Fin.ext
    · show 5000 * t.val + p.val = win3_5.index t (0 : Fin 2) * 5000 + 1 * p.val; omega
    · show q.val = win3_5.index t (1 : Fin 2) * 128 + 1 * q.val; omega

/-- An index of the output array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v24).slice (win3_5.rect t)).set ↔ _
  rw [View.set_slice_whole, Rect.mem_set_unit]
  exact Iff.rfl

/-- The ten row blocks cover the array: row `r` lies in block `r / 5000`. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨_, _, _, _, _, _, _, _, _, _, e50, e51⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- THE OUTPUT ARRAY after the region: the normalised, scaled, shifted and clamped messages, entry by entry. -/
theorem value (c : Dev nD) :
    (dat3 V c).arrAt 5 cfg3.N
      = fun i => Cert.Spec.normT (fA V c) (sumA V c) (ssqA V c) (gA V c) (bA V c) (i 0) (i 1) :=
  (dat3 V c).arrAt_eq_of_cover 5 _ (fun t _ => flushed_eq V c t) cover

end Cert.KernelIdeal.R3

end
-- ==== Proof.KChain.lean ====
/-
  The fused program's result array as one function of its argument arrays: the four kernels' arrays and the host
  operations between them, chained from the launch to the return.

  Region by region the buffer contents are: after the first stretch the transposed weights and the bias rows; after the
  first kernel the per-reference-point map; after the second the query points' position map; after the second stretch the
  per-query sums of looked-up rows and the counts; after the third kernel the mean messages with their column sums and
  column sums of squares; after the fourth the normalised result.  Each kernel's array is given by its region's value
  lemma; a transposed weight read at
  `(k, c)` is the weight at `(c, k)`, and a `[128]` vector recast as a `[1, 128]` row read at `(0, c)` is the vector at `c`.
-/
import proofs.«426789_j68745246539912_1_alg».proof.Proof.KHost
import proofs.«426789_j68745246539912_1_alg».proof.Proof.SpecT
import proofs.«426789_j68745246539912_1_alg».proof.Proof.R0
import proofs.«426789_j68745246539912_1_alg».proof.Proof.R1
import proofs.«426789_j68745246539912_1_alg».proof.Proof.R2
import proofs.«426789_j68745246539912_1_alg».proof.Proof.R3

set_option maxRecDepth 16384

noncomputable section

open scoped BigOperators

namespace Cert.KernelIdeal.Chain

open Cert.KernelIdeal Cert.KernelIdeal.Gen Cert.KernelIdeal.Stretch
open Idealize.ShloMosaic Idealize.ShloMosaic.TcCoe Idealize.ShloMosaic.ValueIdx Idealize.SL.Sem
open Idealize.ShloMosaic.Pipeline (Dat Cfg Window)

/-! ## Layout operations at an index -/

/-- The transposed position weights at `(k, c)`. -/
theorem transpose5_apply (x : FVec Ideal S128x3 .f32) (k : Fin 3) (c : Fin 128) :
    transpose S3x128 [1, 0] x transposes_S128x3_S3x128_1_0 (ix2 k c) = x (ix2 c k) :=
  transpose_apply _ x transposes_S128x3_S3x128_1_0 (ix2 k c) (ix2 c k) (fun b => match b with
    | ⟨0, _⟩ => rfl
    | ⟨1, _⟩ => rfl)

/-- The transposed feature weights at `(j, c)`. -/
theorem transpose7_apply (x : FVec Ideal S128x128 .f32) (j c : Fin 128) :
    transpose S128x128 [1, 0] x transposes_S128x128_S128x128_1_0 (ix2 j c) = x (ix2 c j) :=
  transpose_apply _ x transposes_S128x128_S128x128_1_0 (ix2 j c) (ix2 c j) (fun b => match b with
    | ⟨0, _⟩ => rfl
    | ⟨1, _⟩ => rfl)

/-- A `[128]` vector recast as a `[1, 128]` row, at `(0, c)`. -/
theorem row_apply (x : FVec Ideal S128 .f32) (c : Fin 128) :
    shapeCast S1x128 x shapeCasts_S128_S1x128 (ix2 0 c) = x (ix1 c) :=
  shapeCast_apply x shapeCasts_S128_S1x128 (ix2 0 c) (ix1 c) (by
    rw [Shape.rowMajor_val_one, Shape.rowMajor_val_two]
    show c.val = 0 * 128 + c.val
    omega)

/-! ## The kernels' functions over the transposed weights are the specification's -/

theorem posEmbT_eq {n : Nat} (x : Cert.Spec.Arr2 n 4) (w5 : FVec Ideal S128x3 .f32) (r : Fin n) (c : Fin 128) :
    Cert.Spec.posEmbT x (transpose S3x128 [1, 0] w5 transposes_S128x3_S3x128_1_0) r c = Cert.Spec.posEmb x w5 r c := by
  unfold Cert.Spec.posEmbT Cert.Spec.posEmb
  refine Finset.sum_congr rfl fun k _ => ?_
  rw [transpose5_apply]

theorem combinedT_eq (x0 : FVec Ideal S100000x4 .f32) (x1 : FVec Ideal S100000x128 .f32) (w5 : FVec Ideal S128x3 .f32)
    (b6 : FVec Ideal S128 .f32) (w7 : FVec Ideal S128x128 .f32) (b8 : FVec Ideal S128 .f32) (r : Fin 100000) (c : Fin 128) :
    Cert.Spec.combinedT x0 x1 (transpose S3x128 [1, 0] w5 transposes_S128x3_S3x128_1_0)
        (shapeCast S1x128 b6 shapeCasts_S128_S1x128) (transpose S128x128 [1, 0] w7 transposes_S128x128_S128x128_1_0)
        (shapeCast S1x128 b8 shapeCasts_S128_S1x128) r c
      = Cert.Spec.combinedRef x0 x1 w5 b6 w7 b8 r c := by
  unfold Cert.Spec.combinedT Cert.Spec.combinedRef Cert.Spec.featEmb
  rw [posEmbT_eq, row_apply, row_apply]
  congr 3
  refine Finset.sum_congr rfl fun j _ => ?_
  rw [transpose7_apply]

/-- The fourth kernel's function over messages, column sums and column sums of squares given by coordinates, and over
    recast scale and shift vectors. -/
theorem normT_eq (f : Fin 50000 → Fin 128 → EReal) (s ss : Fin 128 → EReal) (g b : FVec Ideal S128 .f32)
    (q : Fin 50000) (ch : Fin 128) :
    Cert.Spec.normT (fun i => f (i 0) (i 1)) (fun i => s (i 1)) (fun i => ss (i 1))
        (shapeCast S1x128 g shapeCasts_S128_S1x128) (shapeCast S1x128 b shapeCasts_S128_S1x128) q ch
      = max ((((f q ch - Ideal.div (s ch) Cert.Spec.cntM)
            * Ideal.rsqrt ((Ideal.div (ss ch) Cert.Spec.cntM
                - Ideal.div (s ch) Cert.Spec.cntM * Ideal.div (s ch) Cert.Spec.cntM) + Cert.Spec.eps))
          * g (ix1 ch)) + b (ix1 ch)) 0 := by
  unfold Cert.Spec.normT
  rw [row_apply, row_apply]

/-! ## The run's buffer contents, boundary by boundary -/

section Run

variable (m : (ℓ : Loc nD τ sig) → Buf (Elt Ideal) ℓ) (ρ : Dev nD → PrngReg)

/-- The argument arrays as launched, by their literal types. -/
abbrev x0 (c : Dev nD) : FVec Ideal S100000x4 .f32 := m ((c : Thread nD τ).loc main_arg0)
abbrev x1 (c : Dev nD) : FVec Ideal S100000x128 .f32 := m ((c : Thread nD τ).loc main_arg1)
abbrev x2 (c : Dev nD) : FVec Ideal S50000x4 .f32 := m ((c : Thread nD τ).loc main_arg2)
abbrev i3 (c : Dev nD) : IVec S1600000 32 := m ((c : Thread nD τ).loc main_arg3)
abbrev i4 (c : Dev nD) : IVec S1600000 32 := m ((c : Thread nD τ).loc main_arg4)
abbrev w5 (c : Dev nD) : FVec Ideal S128x3 .f32 := m ((c : Thread nD τ).loc main_arg5)
abbrev b6 (c : Dev nD) : FVec Ideal S128 .f32 := m ((c : Thread nD τ).loc main_arg6)
abbrev w7 (c : Dev nD) : FVec Ideal S128x128 .f32 := m ((c : Thread nD τ).loc main_arg7)
abbrev b8 (c : Dev nD) : FVec Ideal S128 .f32 := m ((c : Thread nD τ).loc main_arg8)
abbrev g9 (c : Dev nD) : FVec Ideal S128 .f32 := m ((c : Thread nD τ).loc main_arg9)
abbrev b10 (c : Dev nD) : FVec Ideal S128 .f32 := m ((c : Thread nD τ).loc main_arg10)

/-! ### After the first kernel -/

/-- The first kernel's array: the per-reference-point map. -/
theorem W2_v6 (c : Dev nD) : W2 m ρ c (Proc.devRef .tc main_v6)
    = fun i => Cert.Spec.combinedRef (x0 m c) (x1 m c) (w5 m c) (b6 m c) (w7 m c) (b8 m c) (i 0) (i 1) := by
  rw [show W2 m ρ c (Proc.devRef .tc main_v6) = (dat0 (V1 m ρ) c).arrAt 6 cfg0.N from W2_arr m ρ c 6,
    Cert.KernelIdeal.R0.value (V1 m ρ) c,
    show Cert.KernelIdeal.R0.a0 (V1 m ρ) c = x0 m c from V1_arg0 m ρ c,
    show Cert.KernelIdeal.R0.a1 (V1 m ρ) c = x1 m c from V1_arg1 m ρ c,
    show Cert.KernelIdeal.R0.wt (V1 m ρ) c = _ from V1_v0 m ρ c,
    show Cert.KernelIdeal.R0.bp (V1 m ρ) c = _ from V1_v2 m ρ c,
    show Cert.KernelIdeal.R0.wm (V1 m ρ) c = _ from V1_v1 m ρ c,
    show Cert.KernelIdeal.R0.bm (V1 m ρ) c = _ from V1_v3 m ρ c]
  funext i
  exact combinedT_eq _ _ _ _ _ _ _ _

/-- The transposed position weights pass through the first kernel (an input window). -/
theorem W2_v0 (c : Dev nD) : W2 m ρ c (Proc.devRef .tc main_v0)
    = transpose S3x128 [1, 0] (w5 m c) transposes_S128x3_S3x128_1_0 :=
  (W2_arr m ρ c 2).trans ((((dat0 (V1 m ρ) c).arrAt_in 2 rfl _).trans (A_eq0 (V1 m ρ) c 2)).trans (V1_v0 m ρ c))

theorem W2_arg2 (c : Dev nD) : W2 m ρ c (Proc.devRef .tc main_arg2) = x2 m c :=
  (W2_of_ne m ρ c main_arg2 (by decide)).trans (V1_arg2 m ρ c)
theorem W2_arg3 (c : Dev nD) : W2 m ρ c (Proc.devRef .tc main_arg3) = i3 m c :=
  (W2_of_ne m ρ c main_arg3 (by decide)).trans (V1_arg3 m ρ c)
theorem W2_arg4 (c : Dev nD) : W2 m ρ c (Proc.devRef .tc main_arg4) = i4 m c :=
  (W2_of_ne m ρ c main_arg4 (by decide)).trans (V1_arg4 m ρ c)
theorem W2_v4 (c : Dev nD) : W2 m ρ c (Proc.devRef .tc main_v4) = shapeCast S1x128 (g9 m c) shapeCasts_S128_S1x128 :=
  (W2_of_ne m ρ c main_v4 (by decide)).trans (V1_v4 m ρ c)
theorem W2_v5 (c : Dev nD) : W2 m ρ c (Proc.devRef .tc main_v5) = shapeCast S1x128 (b10 m c) shapeCasts_S128_S1x128 :=
  (W2_of_ne m ρ c main_v5 (by decide)).trans (V1_v5 m ρ c)

/-! ### After the second kernel -/

/-- The second kernel's array: the query points' position map. -/
theorem W3_v7 (c : Dev nD) : W3 m ρ c (Proc.devRef .tc main_v7)
    = fun i => Cert.Spec.posEmb (x2 m c) (w5 m c) (i 0) (i 1) := by
  rw [show W3 m ρ c (Proc.devRef .tc main_v7) = (dat1 (V2 m ρ) c).arrAt 2 cfg1.N from W3_arr m ρ c 2,
    Cert.KernelIdeal.R1.value (V2 m ρ) c,
    show Cert.KernelIdeal.R1.a2 (V2 m ρ) c = x2 m c from W2_arg2 m ρ c,
    show Cert.KernelIdeal.R1.wt (V2 m ρ) c = _ from W2_v0 m ρ c]
  funext i
  exact posEmbT_eq _ _ _ _

theorem W3_v6 (c : Dev nD) : W3 m ρ c (Proc.devRef .tc main_v6)
    = fun i => Cert.Spec.combinedRef (x0 m c) (x1 m c) (w5 m c) (b6 m c) (w7 m c) (b8 m c) (i 0) (i 1) :=
  (W3_of_ne m ρ c main_v6 (by decide)).trans (W2_v6 m ρ c)
theorem W3_arg3 (c : Dev nD) : W3 m ρ c (Proc.devRef .tc main_arg3) = i3 m c :=
  (W3_of_ne m ρ c main_arg3 (by decide)).trans (W2_arg3 m ρ c)
theorem W3_arg4 (c : Dev nD) : W3 m ρ c (Proc.devRef .tc main_arg4) = i4 m c :=
  (W3_of_ne m ρ c main_arg4 (by decide)).trans (W2_arg4 m ρ c)
theorem W3_v4 (c : Dev nD) : W3 m ρ c (Proc.devRef .tc main_v4) = shapeCast S1x128 (g9 m c) shapeCasts_S128_S1x128 :=
  (W3_of_ne m ρ c main_v4 (by decide)).trans (W2_v4 m ρ c)
theorem W3_v5 (c : Dev nD) : W3 m ρ c (Proc.devRef .tc main_v5) = shapeCast S1x128 (b10 m c) shapeCasts_S128_S1x128 :=
  (W3_of_ne m ρ c main_v5 (by decide)).trans (W2_v5 m ρ c)

/-! ### After the second stretch: the third kernel's operands at an index -/

/-- The per-query sum of looked-up rows. -/
theorem V4_v17_apply (c : Dev nD) (q : Fin 50000) (ch : Fin 128) : (V4 m ρ c main_v17 : FVec Ideal S50000x128 .f32) (ix2 q ch)
    = Cert.Spec.segSumK (x0 m c) (x1 m c) (i3 m c) (i4 m c) (w5 m c) (b6 m c) (w7 m c) (b8 m c) q ch := by
  rw [V4_v17, W3_v6, W3_arg3, W3_arg4, segRows_apply]
  rfl

/-- The per-query count. -/
theorem V4_v22_apply (c : Dev nD) (q : Fin 50000) : (V4 m ρ c main_v22 : FVec Ideal S50000x1 .f32) (ix2 q 0)
    = Cert.Spec.cnt (i4 m c) q := by
  rw [V4_v22, W3_arg4, segCount_apply]

/-- The query's own position map. -/
theorem V4_v7_apply (c : Dev nD) (q : Fin 50000) (ch : Fin 128) : (V4 m ρ c main_v7 : FVec Ideal S50000x128 .f32) (ix2 q ch)
    = Cert.Spec.posEmb (x2 m c) (w5 m c) q ch := by
  rw [V4_v7, W3_v7]
  rfl

/-- The third kernel's message over these operands is the specification's. -/
theorem featT_eq (c : Dev nD) (q : Fin 50000) (ch : Fin 128) :
    Cert.Spec.featT (V4 m ρ c main_v17 : FVec Ideal S50000x128 .f32) (V4 m ρ c main_v22 : FVec Ideal S50000x1 .f32)
        (V4 m ρ c main_v7 : FVec Ideal S50000x128 .f32) q ch
      = Cert.Spec.featK (x0 m c) (x1 m c) (x2 m c) (i3 m c) (i4 m c) (w5 m c) (b6 m c) (w7 m c) (b8 m c) q ch := by
  unfold Cert.Spec.featT Cert.Spec.featK
  rw [V4_v17_apply, V4_v22_apply, V4_v7_apply]

/-! ### After the third kernel -/

theorem W5_v23_0 (c : Dev nD) : W5 m ρ c (Proc.devRef .tc main_v23_0)
    = fun i => Cert.Spec.featK (x0 m c) (x1 m c) (x2 m c) (i3 m c) (i4 m c) (w5 m c) (b6 m c) (w7 m c) (b8 m c) (i 0) (i 1) := by
  rw [show W5 m ρ c (Proc.devRef .tc main_v23_0) = (dat2 (V4 m ρ) c).arrAt 3 cfg2.N from W5_arr m ρ c 3,
    Cert.KernelIdeal.R2.value3 (V4 m ρ) c]
  funext i
  exact featT_eq m ρ c _ _

theorem W5_v23_1 (c : Dev nD) : W5 m ρ c (Proc.devRef .tc main_v23_1)
    = fun i => Cert.Spec.sumK (x0 m c) (x1 m c) (x2 m c) (i3 m c) (i4 m c) (w5 m c) (b6 m c) (w7 m c) (b8 m c) (i 1) := by
  rw [show W5 m ρ c (Proc.devRef .tc main_v23_1) = (dat2 (V4 m ρ) c).arrAt 4 cfg2.N from W5_arr m ρ c 4,
    Cert.KernelIdeal.R2.value4 (V4 m ρ) c]
  funext i
  unfold Cert.Spec.sumT Cert.Spec.sumK
  exact Finset.sum_congr rfl fun q _ => featT_eq m ρ c q _

theorem W5_v23_2 (c : Dev nD) : W5 m ρ c (Proc.devRef .tc main_v23_2)
    = fun i => Cert.Spec.sumsqK (x0 m c) (x1 m c) (x2 m c) (i3 m c) (i4 m c) (w5 m c) (b6 m c) (w7 m c) (b8 m c) (i 1) := by
  rw [show W5 m ρ c (Proc.devRef .tc main_v23_2) = (dat2 (V4 m ρ) c).arrAt 5 cfg2.N from W5_arr m ρ c 5,
    Cert.KernelIdeal.R2.value5 (V4 m ρ) c]
  funext i
  unfold Cert.Spec.sumsqT Cert.Spec.sumsqK
  exact Finset.sum_congr rfl fun q _ => congrArg₂ (· * ·) (featT_eq m ρ c q _) (featT_eq m ρ c q _)

theorem W5_v4 (c : Dev nD) : W5 m ρ c (Proc.devRef .tc main_v4) = shapeCast S1x128 (g9 m c) shapeCasts_S128_S1x128 :=
  (W5_of_ne m ρ c main_v4 (by decide)).trans ((V4_v4 m ρ c).trans (W3_v4 m ρ c))
theorem W5_v5 (c : Dev nD) : W5 m ρ c (Proc.devRef .tc main_v5) = shapeCast S1x128 (b10 m c) shapeCasts_S128_S1x128 :=
  (W5_of_ne m ρ c main_v5 (by decide)).trans ((V4_v5 m ρ c).trans (W3_v5 m ρ c))

/-! ### After the fourth kernel: the result -/

/-- THE RESULT ARRAY at the return: the fused program's specification, entry by entry. -/
theorem W6_v24 (c : Dev nD) : W6 m ρ c (Proc.devRef .tc main_v24)
    = fun i => Cert.Spec.outK (x0 m c) (x1 m c) (x2 m c) (i3 m c) (i4 m c) (w5 m c) (b6 m c) (w7 m c) (b8 m c)
        (g9 m c) (b10 m c) (i 0) (i 1) := by
  rw [show W6 m ρ c (Proc.devRef .tc main_v24) = (dat3 (V5 m ρ) c).arrAt 5 cfg3.N from W6_arr m ρ c 5,
    Cert.KernelIdeal.R3.value (V5 m ρ) c,
    show Cert.KernelIdeal.R3.fA (V5 m ρ) c = _ from W5_v23_0 m ρ c,
    show Cert.KernelIdeal.R3.sumA (V5 m ρ) c = _ from W5_v23_1 m ρ c,
    show Cert.KernelIdeal.R3.ssqA (V5 m ρ) c = _ from W5_v23_2 m ρ c,
    show Cert.KernelIdeal.R3.gA (V5 m ρ) c = _ from W5_v4 m ρ c,
    show Cert.KernelIdeal.R3.bA (V5 m ρ) c = _ from W5_v5 m ρ c]
  funext i
  exact normT_eq (Cert.Spec.featK (x0 m c) (x1 m c) (x2 m c) (i3 m c) (i4 m c) (w5 m c) (b6 m c) (w7 m c) (b8 m c))
    (Cert.Spec.sumK (x0 m c) (x1 m c) (x2 m c) (i3 m c) (i4 m c) (w5 m c) (b6 m c) (w7 m c) (b8 m c))
    (Cert.Spec.sumsqK (x0 m c) (x1 m c) (x2 m c) (i3 m c) (i4 m c) (w5 m c) (b6 m c) (w7 m c) (b8 m c))
    (g9 m c) (b10 m c) (i 0) (i 1)

end Run

end Cert.KernelIdeal.Chain

end
-- ==== Proof.KValue.lean ====
/-
  The fused program's run with its result named: every weakly fair execution terminates with the result array at the
  specification's function of the argument arrays, and the arguments unchanged.
-/
import proofs.«426789_j68745246539912_1_alg».proof.Proof.KRun
import proofs.«426789_j68745246539912_1_alg».proof.Proof.KChain

set_option maxRecDepth 16384

noncomputable section

namespace Cert.KernelIdeal.Result

open Cert.KernelIdeal Cert.KernelIdeal.Gen Cert.KernelIdeal.Chain
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result array as the specification states it. -/
abbrev out (c : Dev nD) : Buf (Elt Ideal) ((c.tc : Thread nD τ).loc main_v24) :=
  fun i => Cert.Spec.outK (x0 m c) (x1 m c) (x2 m c) (i3 m c) (i4 m c) (w5 m c) (b6 m c) (w7 m c) (b8 m c)
    (g9 m c) (b10 m c) (i 0) (i 1)

theorem run : θ_run defs (onTc (τ := τ) (main (F := Ideal))) ⟨m, fun _ => 0, ρ⟩ (fun r => ∀ c : Dev nD,
      r.2.mem ((c.tc : Thread nD τ).loc main_v24) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W6_v24 m ρ c), (h c).2⟩)
    (Cert.KernelIdeal.Run.run_result (F := Ideal) m ρ)

end Cert.KernelIdeal.Result

end
-- ==== Proof.Ref.lean ====
/-
  The plain program's result term is `Spec.outR` of its argument arrays, entry by entry.

  The program is read stage by stage from the inputs up.  A lookup word is first moved up by the table's length when
  negative (`Spec.normW`), then used as a start index: the row lookup clips it into the table (`Spec.rowOf`).  Per
  edge the two looked-up position rows are subtracted, their coordinates (columns 1..3) go through `W_posᵀ` and get
  the bias (`Spec.posDiffEmb`); the looked-up row of `feat·W_mlpᵀ + b_mlp` (`Spec.outFeat`) is added (`Spec.edgeVal`).
  The accumulating scatter sums the edges whose query word, read signed, names the row (`Spec.seg`), from zero
  (`Spec.segSumR`), and the same scatter of ones counts them (`Spec.cnt`).  The quotient by the clamped count is
  `Spec.featR`; its column mean, mean squared deviation and reciprocal root are `Spec.muR`, `Spec.varR`, `Spec.rsR`;
  scale, shift and the clamp at zero give `Spec.outR`.
-/
import proofs.«426789_j68745246539912_1_alg».proof.Proof.Gen.ReferenceIdeal.Read
import proofs.«426789_j68745246539912_1_alg».proof.Proof.Spec
import proofs.«426789_j68745246539912_1_alg».proof.Proof.LibGS
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.SL.Sem

section Stages

variable (xr : FVec Ideal S100000x4 .f32) (xf : FVec Ideal S100000x128 .f32) (xq : FVec Ideal S50000x4 .f32)
  (ir iq : IVec S1600000 32) (wp : FVec Ideal S128x3 .f32) (bp : FVec Ideal S128 .f32)
  (wm : FVec Ideal S128x128 .f32) (bm ga be : FVec Ideal S128 .f32)

/-! ## The lookup words -/

/-- Entry `(e, 0)` of a word array laid out as one column is word `e`. -/
theorem idx5_eq (e : Fin 1600000) : Read.idx_main_v5 (ix2 e 0) = ix1 e :=
  funext fun a => Fin.ext (by match a with | ⟨0, _⟩ => rfl)
theorem idx12_eq (e : Fin 1600000) : Read.idx_main_v12 (ix2 e 0) = ix1 e :=
  funext fun a => Fin.ext (by match a with | ⟨0, _⟩ => rfl)
theorem idx31_eq (e : Fin 1600000) : Read.idx_main_v31 (ix2 e 0) = ix1 e :=
  funext fun a => Fin.ext (by match a with | ⟨0, _⟩ => rfl)
theorem idx35_eq (e : Fin 1600000) : Read.idx_main_v35 (ix2 e 0) = ix1 e :=
  funext fun a => Fin.ext (by match a with | ⟨0, _⟩ => rfl)
theorem idx39_eq (e : Fin 1600000) : Read.idx_main_v39 (ix2 e 0) = ix1 e :=
  funext fun a => Fin.ext (by match a with | ⟨0, _⟩ => rfl)

/-- The reference word of edge `e`, moved up by `100000` when negative. -/
theorem v4_at (e : Fin 1600000) :
    Read.val_main_v4 (F := Ideal) ir (ix1 e) = Cert.Spec.normW 100000#32 (ir (ix1 e)) := by
  rw [Read.val_main_v4_apply, Read.val_main_v1_apply, Read.val_main_v3_apply, Read.val_main_v0_apply,
    Read.val_main_v2_apply, Read.val_main_c_apply, Read.val_main_c_0_apply]
  rfl

/-- The same word as the one column of the start-index array. -/
theorem v5_at (e : Fin 1600000) :
    Read.val_main_v5 (F := Ideal) ir (ix2 e 0) = Cert.Spec.normW 100000#32 (ir (ix1 e)) := by
  rw [Read.val_main_v5_apply, idx5_eq]
  exact v4_at ir e

/-- The query word of edge `e`, moved up by `50000` when negative. -/
theorem v11_at (e : Fin 1600000) :
    Read.val_main_v11 (F := Ideal) iq (ix1 e) = Cert.Spec.normW 50000#32 (iq (ix1 e)) := by
  rw [Read.val_main_v11_apply, Read.val_main_v8_apply, Read.val_main_v10_apply, Read.val_main_v7_apply,
    Read.val_main_v9_apply, Read.val_main_c_1_apply, Read.val_main_c_2_apply]
  rfl

theorem v12_at (e : Fin 1600000) :
    Read.val_main_v12 (F := Ideal) iq (ix2 e 0) = Cert.Spec.normW 50000#32 (iq (ix1 e)) := by
  rw [Read.val_main_v12_apply, idx12_eq]
  exact v11_at iq e

/-- The reference word again, as the feature lookup spells it. -/
theorem v30_at (e : Fin 1600000) :
    Read.val_main_v30 (F := Ideal) ir (ix1 e) = Cert.Spec.normW 100000#32 (ir (ix1 e)) := by
  rw [Read.val_main_v30_apply, Read.val_main_v27_apply, Read.val_main_v29_apply, Read.val_main_v26_apply,
    Read.val_main_v28_apply, Read.val_main_c_3_apply, Read.val_main_c_4_apply]
  rfl

theorem v31_at (e : Fin 1600000) :
    Read.val_main_v31 (F := Ideal) ir (ix2 e 0) = Cert.Spec.normW 100000#32 (ir (ix1 e)) := by
  rw [Read.val_main_v31_apply, idx31_eq]
  exact v30_at ir e

/-! ## The three row lookups -/

/-- The looked-up reference position row. -/
theorem v6_at (e : Fin 1600000) (k : Fin 4) :
    Read.val_main_v6 (F := Ideal) xr ir (ix2 e k) = xr (ix2 (Cert.Spec.rowRef ir e) k) := by
  unfold Read.val_main_v6 gather_S100000x4_S1600000x1_S1600000x4_1_0_n_n_0_1_14
  refine (Cert.LibGS.gather_rows_apply (by decide) _ xr (Read.val_main_v5 (F := Ideal) ir) e k).trans ?_
  refine congrArg xr (congrArg (fun r => ix2 r k) (Fin.ext ?_))
  show min (Read.val_main_v5 (F := Ideal) ir (ix2 e 0)).toInt.toNat (100000 - 1) = _
  rw [v5_at]
  rfl

/-- The looked-up query position row. -/
theorem v13_at (e : Fin 1600000) (k : Fin 4) :
    Read.val_main_v13 (F := Ideal) xq iq (ix2 e k) = xq (ix2 (Cert.Spec.rowQry iq e) k) := by
  unfold Read.val_main_v13 gather_S50000x4_S1600000x1_S1600000x4_1_0_n_n_0_1_14
  refine (Cert.LibGS.gather_rows_apply (by decide) _ xq (Read.val_main_v12 (F := Ideal) iq) e k).trans ?_
  refine congrArg xq (congrArg (fun r => ix2 r k) (Fin.ext ?_))
  show min (Read.val_main_v12 (F := Ideal) iq (ix2 e 0)).toInt.toNat (50000 - 1) = _
  rw [v12_at]
  rfl

end Stages

section Stages2

variable (xr : FVec Ideal S100000x4 .f32) (xf : FVec Ideal S100000x128 .f32) (xq : FVec Ideal S50000x4 .f32)
  (ir iq : IVec S1600000 32) (wp : FVec Ideal S128x3 .f32) (bp : FVec Ideal S128 .f32)
  (wm : FVec Ideal S128x128 .f32) (bm ga be : FVec Ideal S128 .f32)

/-! ## The two linear maps -/

/-- Per reference point: the feature row through `W_mlpᵀ`, plus its bias. -/
theorem v25_at (r : Fin 100000) (c : Fin 128) :
    Read.val_main_v25 (F := Ideal) xf wm bm (ix2 r c) = Cert.Spec.outFeat xf wm bm r c := by
  have el : ∀ k : Fin 128, Read.lidx_main_v22 (ix2 r c) k = ix2 r k := fun k =>
    funext fun a => Fin.ext (by match a with | ⟨0, _⟩ => rfl | ⟨1, _⟩ => rfl)
  have er : ∀ k : Fin 128, Read.idx_main_v21 (Read.ridx_main_v22 (ix2 r c) k) = ix2 c k := fun k =>
    funext fun a => Fin.ext (by match a with | ⟨0, _⟩ => rfl | ⟨1, _⟩ => rfl)
  have eb : Read.idx_main_v23 (Read.idx_main_v24 (ix2 r c)) = ix1 c :=
    funext fun a => Fin.ext (by match a with | ⟨0, _⟩ => rfl)
  rw [Read.val_main_v25_apply, Read.val_main_v22_apply, Read.val_main_v24_apply, Read.val_main_v23_apply, eb]
  simp only [Read.val_main_v21_apply, el, er]
  rfl

/-- The looked-up row of it. -/
theorem v32_at (e : Fin 1600000) (c : Fin 128) :
    Read.val_main_v32 (F := Ideal) xf ir wm bm (ix2 e c)
      = Cert.Spec.outFeat xf wm bm (Cert.Spec.rowRef ir e) c := by
  unfold Read.val_main_v32 gather_S100000x128_S1600000x1_S1600000x128_1_0_n_n_0_1_1128
  refine (Cert.LibGS.gather_rows_apply (by decide) _ (Read.val_main_v25 (F := Ideal) xf wm bm)
    (Read.val_main_v31 (F := Ideal) ir) e c).trans ?_
  refine Eq.trans (congrArg (Read.val_main_v25 (F := Ideal) xf wm bm) (congrArg (fun r => ix2 r c) (Fin.ext ?_)))
    (v25_at xf wm bm (Cert.Spec.rowRef ir e) c)
  show min (Read.val_main_v31 (F := Ideal) ir (ix2 e 0)).toInt.toNat (100000 - 1) = _
  rw [v31_at]
  rfl

/-- Per edge: the difference of the two looked-up position rows, coordinate `k`. -/
theorem v15_at (e : Fin 1600000) (k : Fin 3) :
    Read.val_main_v15 (F := Ideal) xr xq ir iq (ix2 e k)
      = xr (ix2 (Cert.Spec.rowRef ir e) (Cert.Spec.col1 k)) - xq (ix2 (Cert.Spec.rowQry iq e) (Cert.Spec.col1 k)) := by
  have ei : Read.idx_main_v15 (ix2 e k) = ix2 e (Cert.Spec.col1 k) :=
    funext fun a => Fin.ext (by
      match a with
      | ⟨0, _⟩ => rfl
      | ⟨1, _⟩ => show 1 + k.val = k.val + 1; omega)
  rw [Read.val_main_v15_apply, ei, Read.val_main_v14_apply, v6_at, v13_at]
  rfl

/-- Per edge: that difference through `W_posᵀ`, plus its bias. -/
theorem v20_at (e : Fin 1600000) (c : Fin 128) :
    Read.val_main_v20 (F := Ideal) xr xq ir iq wp bp (ix2 e c) = Cert.Spec.posDiffEmb xr xq ir iq wp bp e c := by
  have el : ∀ k : Fin 3, Read.lidx_main_v17 (ix2 e c) k = ix2 e k := fun k =>
    funext fun a => Fin.ext (by match a with | ⟨0, _⟩ => rfl | ⟨1, _⟩ => rfl)
  have er : ∀ k : Fin 3, Read.idx_main_v16 (Read.ridx_main_v17 (ix2 e c) k) = ix2 c k := fun k =>
    funext fun a => Fin.ext (by match a with | ⟨0, _⟩ => rfl | ⟨1, _⟩ => rfl)
  have eb : Read.idx_main_v18 (Read.idx_main_v19 (ix2 e c)) = ix1 c :=
    funext fun a => Fin.ext (by match a with | ⟨0, _⟩ => rfl)
  rw [Read.val_main_v20_apply, Read.val_main_v17_apply, Read.val_main_v19_apply, Read.val_main_v18_apply, eb]
  simp only [Read.val_main_v16_apply, el, er, v15_at]
  rfl

/-- Per edge: the message. -/
theorem v33_at (e : Fin 1600000) (c : Fin 128) :
    Read.val_main_v33 (F := Ideal) xr xf xq ir iq wp bp wm bm (ix2 e c)
      = Cert.Spec.edgeVal xr xf xq ir iq wp bp wm bm e c := by
  rw [Read.val_main_v33_apply, v20_at, v32_at]
  rfl

end Stages2

section Stages3

variable (xr : FVec Ideal S100000x4 .f32) (xf : FVec Ideal S100000x128 .f32) (xq : FVec Ideal S50000x4 .f32)
  (ir iq : IVec S1600000 32) (wp : FVec Ideal S128x3 .f32) (bp : FVec Ideal S128 .f32)
  (wm : FVec Ideal S128x128 .f32) (bm ga be : FVec Ideal S128 .f32)

/-! ## The two segment sums -/

/-- The edges the scatter sums into row `q`: those whose query word, read signed, is `q`. -/
theorem seg35 (q : Fin 50000) :
    (Finset.univ.filter fun e : Fin 1600000 => (Read.val_main_v35 (F := Ideal) iq (ix2 e 0)).toInt = (q.val : ℤ))
      = Cert.Spec.seg iq q := by
  unfold Cert.Spec.seg
  refine Finset.filter_congr fun e _ => ?_
  rw [Read.val_main_v35_apply, idx35_eq]

theorem seg39 (q : Fin 50000) :
    (Finset.univ.filter fun e : Fin 1600000 => (Read.val_main_v39 (F := Ideal) iq (ix2 e 0)).toInt = (q.val : ℤ))
      = Cert.Spec.seg iq q := by
  unfold Cert.Spec.seg
  refine Finset.filter_congr fun e _ => ?_
  rw [Read.val_main_v39_apply, idx39_eq]

/-- The host's accumulating scatter over the extended reals is the exact sum. -/
theorem scatterAdd_exact {s si u : Shape} {w : Nat} (d : ScatterDims s si u) (x : FVec Ideal s .f32) (idx : IVec si w)
    (upd : FVec Ideal u .f32) :
    Host.scatterAdd (F := Ideal) d x idx upd = Ideal.hostScatterAdd d x idx upd := rfl

/-- The row scatter's dimension numbers, by their fields. -/
theorem rowScatter_eq :
    scatter_S50000x128_S1600000x1_S1600000x128_1_0_0_1
      = Cert.LibGS.rowScatterDims 50000 1600000 128 Facts₀.scatter_S50000x128_S1600000x1_S1600000x128_1_0_0_1_wf := rfl

/-- The scalar scatter's dimension numbers, by their fields. -/
theorem vecScatter_eq :
    scatter_S50000_S1600000x1_S1600000_n_0_0_1
      = Cert.LibGS.vecScatterDims 50000 1600000 Facts₀.scatter_S50000_S1600000x1_S1600000_n_0_0_1_wf := rfl

/-- The messages summed per query row, from zero. -/
theorem v36_at (q : Fin 50000) (c : Fin 128) :
    Read.val_main_v36 (F := Ideal) xr xf xq ir iq wp bp wm bm (ix2 q c)
      = Cert.Spec.segSumR xr xf xq ir iq wp bp wm bm q c := by
  unfold Read.val_main_v36 Cert.Spec.segSumR
  rw [scatterAdd_exact, rowScatter_eq, Cert.LibGS.scatterAdd_rows_apply, seg35, Read.val_main_v34_apply,
    Read.val_main_cst_apply, Ideal.ofBits_def, Ideal.ofBits_zero_f32]
  refine congrArg (0 + ·) (Finset.sum_congr rfl fun e _ => ?_)
  exact v33_at xr xf xq ir iq wp bp wm bm e c

/-- The edges counted per query row, from zero. -/
theorem v40_at (q : Fin 50000) :
    Read.val_main_v40 (F := Ideal) iq (ix1 q) = Cert.Spec.cnt iq q := by
  unfold Read.val_main_v40 Cert.Spec.cnt Cert.Spec.one
  rw [scatterAdd_exact, vecScatter_eq, Cert.LibGS.scatterAdd_vec_apply, seg39, Read.val_main_v38_apply,
    Read.val_main_cst_6_apply, Ideal.ofBits_def, Ideal.ofBits_zero_f32]
  refine congrArg (0 + ·) (Finset.sum_congr rfl fun e _ => ?_)
  rw [Read.val_main_v37_apply, Read.val_main_cst_5_apply, Ideal.ofBits_def]

/-! ## The mean message and its column statistics -/

/-- The clamped count, as the divisor is laid out. -/
theorem v44_at (q : Fin 50000) (c : Fin 128) :
    Read.val_main_v44 (F := Ideal) iq (ix2 q c) = max (Cert.Spec.cnt iq q) Cert.Spec.one := by
  have ei : Read.idx_main_v43 (Read.idx_main_v44 (ix2 q c)) = ix1 q :=
    funext fun a => Fin.ext (by match a with | ⟨0, _⟩ => rfl)
  rw [Read.val_main_v44_apply, Read.val_main_v43_apply, ei, Read.val_main_v42_apply, v40_at,
    Read.val_main_v41_apply, Read.val_main_cst_7_apply]
  rfl

theorem v45_at (q : Fin 50000) (c : Fin 128) :
    Read.val_main_v45 (F := Ideal) xr xf xq ir iq wp bp wm bm (ix2 q c)
      = Cert.Spec.featR xr xf xq ir iq wp bp wm bm q c := by
  rw [Read.val_main_v45_apply, v36_at, v44_at]
  rfl

/-- The column mean. -/
theorem v48_at (c : Fin 128) :
    Read.val_main_v48 (F := Ideal) xr xf xq ir iq wp bp wm bm (ix1 c)
      = Cert.Spec.muR xr xf xq ir iq wp bp wm bm c := by
  have ei : ∀ k : Fin 50000, Read.idx_main_v46 (ix1 c) k = ix2 k c := fun k =>
    funext fun a => Fin.ext (by match a with | ⟨0, _⟩ => rfl | ⟨1, _⟩ => rfl)
  unfold Cert.Spec.muR Cert.Spec.cntM
  rw [Read.val_main_v48_apply, Read.val_main_v46_apply, Read.val_main_v47_apply, Read.val_main_cst_8_apply,
    Read.val_main_cst_9_apply, Ideal.hostDivf_def]
  simp only [Ideal.ofBits_def, Ideal.ofBits_zero_f32]
  refine congrArg (fun s : EReal => Ideal.div (0 + s) (Ideal.ofBits .f32 0x47435000#32)) ?_
  refine Finset.sum_congr rfl fun k _ => ?_
  rw [ei, v45_at]

/-- The column mean, as the subtrahend is laid out. -/
theorem v50_at (q : Fin 50000) (c : Fin 128) :
    Read.val_main_v50 (F := Ideal) xr xf xq ir iq wp bp wm bm (ix2 q c)
      = Cert.Spec.muR xr xf xq ir iq wp bp wm bm c := by
  have ei : Read.idx_main_v49 (Read.idx_main_v50 (ix2 q c)) = ix1 c :=
    funext fun a => Fin.ext (by match a with | ⟨0, _⟩ => rfl)
  rw [Read.val_main_v50_apply, Read.val_main_v49_apply, ei, v48_at]

theorem v57_at (q : Fin 50000) (c : Fin 128) :
    Read.val_main_v57 (F := Ideal) xr xf xq ir iq wp bp wm bm (ix2 q c)
      = Cert.Spec.muR xr xf xq ir iq wp bp wm bm c := by
  have ei : Read.idx_main_v56 (Read.idx_main_v57 (ix2 q c)) = ix1 c :=
    funext fun a => Fin.ext (by match a with | ⟨0, _⟩ => rfl)
  rw [Read.val_main_v57_apply, Read.val_main_v56_apply, ei, v48_at]

/-- The column's mean squared deviation. -/
theorem v55_at (c : Fin 128) :
    Read.val_main_v55 (F := Ideal) xr xf xq ir iq wp bp wm bm (ix1 c)
      = Cert.Spec.varR xr xf xq ir iq wp bp wm bm c := by
  have ei : ∀ k : Fin 50000, Read.idx_main_v53 (ix1 c) k = ix2 k c := fun k =>
    funext fun a => Fin.ext (by match a with | ⟨0, _⟩ => rfl | ⟨1, _⟩ => rfl)
  unfold Cert.Spec.varR Cert.Spec.cntM
  rw [Read.val_main_v55_apply, Read.val_main_v53_apply, Read.val_main_v54_apply, Read.val_main_cst_10_apply,
    Read.val_main_cst_11_apply, Ideal.hostDivf_def]
  simp only [Ideal.ofBits_def, Ideal.ofBits_zero_f32]
  refine congrArg (fun s : EReal => Ideal.div (0 + s) (Ideal.ofBits .f32 0x47435000#32)) ?_
  refine Finset.sum_congr rfl fun k _ => ?_
  rw [ei, Read.val_main_v52_apply, Read.val_main_v51_apply, v45_at, v50_at, Ideal.mulf_def, Ideal.subf_def]

/-- The reciprocal root of it, the small constant added. -/
theorem v61_at (c : Fin 128) :
    Read.val_main_v61 (F := Ideal) xr xf xq ir iq wp bp wm bm (ix1 c)
      = Cert.Spec.rsR xr xf xq ir iq wp bp wm bm c := by
  unfold Cert.Spec.rsR Cert.Spec.eps
  rw [Read.val_main_v61_apply, Read.val_main_v60_apply, v55_at, Read.val_main_v59_apply,
    Read.val_main_cst_12_apply, Ideal.hostUnary_rsqrt_def, Ideal.addf_def, Ideal.ofBits_def]

theorem v63_at (q : Fin 50000) (c : Fin 128) :
    Read.val_main_v63 (F := Ideal) xr xf xq ir iq wp bp wm bm (ix2 q c)
      = Cert.Spec.rsR xr xf xq ir iq wp bp wm bm c := by
  have ei : Read.idx_main_v62 (Read.idx_main_v63 (ix2 q c)) = ix1 c :=
    funext fun a => Fin.ext (by match a with | ⟨0, _⟩ => rfl)
  rw [Read.val_main_v63_apply, Read.val_main_v62_apply, ei, v61_at]

/-! ## Scale, shift, clamp -/

theorem v71_at (q : Fin 50000) (c : Fin 128) :
    Read.val_main_v71 (F := Ideal) xr xf xq ir iq wp bp wm bm ga be (ix2 q c)
      = Cert.Spec.outR xr xf xq ir iq wp bp wm bm ga be q c := by
  have eg : Read.idx_main_v65 (Read.idx_main_v66 (ix2 q c)) = ix1 c :=
    funext fun a => Fin.ext (by match a with | ⟨0, _⟩ => rfl)
  have eb : Read.idx_main_v68 (Read.idx_main_v69 (ix2 q c)) = ix1 c :=
    funext fun a => Fin.ext (by match a with | ⟨0, _⟩ => rfl)
  unfold Cert.Spec.outR
  rw [Read.val_main_v71_apply, Read.val_main_v70_apply, Read.val_main_v67_apply, Read.val_main_v64_apply,
    Read.val_main_v58_apply, v45_at, v57_at, v63_at, Read.val_main_v66_apply, Read.val_main_v65_apply, eg,
    Read.val_main_v69_apply, Read.val_main_v68_apply, eb, Read.val_main_call0_v0_apply,
    Read.val_main_call0_cst_apply]
  simp only [Ideal.ofBits_def, Ideal.ofBits_zero_f32, Ideal.maximumf_def, Ideal.addf_def, Ideal.mulf_def,
    Ideal.subf_def]

end Stages3

variable (m : (ℓ : Loc nD τ sig) → Buf (Elt Ideal) ℓ)

/-- The argument arrays as launched, by their literal types. -/
abbrev x0 (c : Dev nD) : FVec Ideal S100000x4 .f32 := m ((c.tc : Thread nD τ).loc main_arg0)
abbrev x1 (c : Dev nD) : FVec Ideal S100000x128 .f32 := m ((c.tc : Thread nD τ).loc main_arg1)
abbrev x2 (c : Dev nD) : FVec Ideal S50000x4 .f32 := m ((c.tc : Thread nD τ).loc main_arg2)
abbrev i3 (c : Dev nD) : IVec S1600000 32 := m ((c.tc : Thread nD τ).loc main_arg3)
abbrev i4 (c : Dev nD) : IVec S1600000 32 := m ((c.tc : Thread nD τ).loc main_arg4)
abbrev w5 (c : Dev nD) : FVec Ideal S128x3 .f32 := m ((c.tc : Thread nD τ).loc main_arg5)
abbrev b6 (c : Dev nD) : FVec Ideal S128 .f32 := m ((c.tc : Thread nD τ).loc main_arg6)
abbrev w7 (c : Dev nD) : FVec Ideal S128x128 .f32 := m ((c.tc : Thread nD τ).loc main_arg7)
abbrev b8 (c : Dev nD) : FVec Ideal S128 .f32 := m ((c.tc : Thread nD τ).loc main_arg8)
abbrev g9 (c : Dev nD) : FVec Ideal S128 .f32 := m ((c.tc : Thread nD τ).loc main_arg9)
abbrev b10 (c : Dev nD) : FVec Ideal S128 .f32 := m ((c.tc : Thread nD τ).loc main_arg10)

/-- THE RESULT TERM of the plain program's run, entry by entry. -/
theorem res_eq (c : Dev nD) :
    Cert.ReferenceIdeal.Value.res_main_v71 (F := Ideal) m c
      = fun i => Cert.Spec.outR (x0 m c) (x1 m c) (x2 m c) (i3 m c) (i4 m c) (w5 m c) (b6 m c) (w7 m c) (b8 m c)
          (g9 m c) (b10 m c) (i 0) (i 1) := by
  rw [Read.val_main_v71_eq]
  funext i
  exact (congrArg _ (eq_ix2 i)).trans
    (v71_at (x0 m c) (x1 m c) (x2 m c) (i3 m c) (i4 m c) (w5 m c) (b6 m c) (w7 m c) (b8 m c) (g9 m c) (b10 m c) (i 0) (i 1))

end Cert.ReferenceIdeal.RefValue

end
-- ==== Proof.Finite.lean ====
/-
  From the precondition "every float argument is finite" to "every entry of every float argument is a real number".
-/
import proofs.«426789_j68745246539912_1_alg».proof.Pre_finite_inputs
import proofs.«426789_j68745246539912_1_alg».proof.Proof.Spec
import Idealize.ShloMosaic.Lib.ReduceAll
import Idealize.ShloMosaic.Lib.ValueIdx

noncomputable section

namespace Cert.FiniteInputs

open Idealize.ShloMosaic Idealize.ShloMosaic.ValueIdx Cert.Pre_finite_inputs

/-- The result of a reduction over all axes has exactly one index. -/
instance : Subsingleton S_.Idx := ⟨fun a b => funext fun d => d.elim0⟩

/-- The pattern `0x7F800000` (exponent all ones, fraction zero, sign clear) denotes `+∞`. -/
theorem ofBits_inf : Ideal.ofBits .f32 0x7F800000#32 = (⊤ : EReal) := by
  simp [Ideal.ofBits, Ideal.ieee]

/-- An extended real whose absolute value `max a (-a)` is strictly below `+∞` is a real number: at `⊤` the
    maximum is `⊤`, at `⊥` it is `-⊥ = ⊤`, and `⊤ < ⊤` fails. -/
theorem real_of_abs_lt (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- For an array of any shape: if the conjunction over all indices of `|x i| < +∞` is true, every entry of `x` is a
    real number.  A conjunction over all indices that is true is true at each index; there the comparison is the
    scalar fact above. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant S_ .f32 0x7F800000#32)))
          (constantI S_ 1 1#1) hr hu ix0 = 1#1) :
    ∀ i, ∃ r : ℝ, x i = (r : EReal) := by
  intro i
  have e := Host.reduce_andi_all _ _ hr hu ix0 h i
  exact real_of_abs_lt (x i) e

variable [Cert.Pre_finite_inputs.Facts]

/-- If the printed finiteness predicate is all ones, each float argument's entries are real numbers (the seven
    arrays the value proof needs; the scale and shift rows are not needed). -/
theorem real_of_fn (x0 : FVec Ideal S100000x4 .f32) (x1 : FVec Ideal S100000x128 .f32) (x2 : FVec Ideal S50000x4 .f32)
    (i3 i4 : IVec S1600000 32) (x5 : FVec Ideal S128x3 .f32) (x6 : FVec Ideal S128 .f32) (x7 : FVec Ideal S128x128 .f32)
    (x8 x9 x10 : FVec Ideal S128 .f32)
    (h : Cert.Pre_finite_inputs.fn (F := Ideal) x0 x1 x2 i3 i4 x5 x6 x7 x8 x9 x10 = fun _ => 1#1) :
    Cert.Spec.Real2 x0 ∧ Cert.Spec.Real2 x1 ∧ Cert.Spec.Real2 x2 ∧ Cert.Spec.Real2 x5 ∧ Cert.Spec.Real1 x6
      ∧ Cert.Spec.Real2 x7 ∧ Cert.Spec.Real1 x8 := by
  -- The predicate at its one index is a left-nested conjunction of the nine per-argument conjunctions, in argument
  -- order; peel it from the right, dropping the two rows that are not needed.
  have h0 := congrFun h ix0
  unfold Cert.Pre_finite_inputs.fn Cert.Pre_finite_inputs.fn_part1 Cert.Pre_finite_inputs.fn_part2 at h0
  dsimp only [Idealize.ShloMosaic.andi] at h0
  obtain ⟨h0, -⟩ := IntOp.andi_eq_one.1 h0
  obtain ⟨h0, -⟩ := IntOp.andi_eq_one.1 h0
  obtain ⟨h0, p8⟩ := IntOp.andi_eq_one.1 h0
  obtain ⟨h0, p7⟩ := IntOp.andi_eq_one.1 h0
  obtain ⟨h0, p6⟩ := IntOp.andi_eq_one.1 h0
  obtain ⟨h0, p5⟩ := IntOp.andi_eq_one.1 h0
  obtain ⟨h0, p2⟩ := IntOp.andi_eq_one.1 h0
  obtain ⟨p0, p1⟩ := IntOp.andi_eq_one.1 h0
  exact ⟨real_of_all x0 _ _ _ p0, real_of_all x1 _ _ _ p1, real_of_all x2 _ _ _ p2, real_of_all x5 _ _ _ p5,
    real_of_all x6 _ _ _ p6, real_of_all x7 _ _ _ p7, real_of_all x8 _ _ _ p8⟩

end Cert.FiniteInputs

end
-- ==== Proof.Algebra1.lean ====
/-
  The two programs' mean messages agree, entry by entry, when the float arguments are real numbers.

  With real arguments every piece of either program is the coercion of a real number: the count of a query row is
  its number of edges `n`, the division by the clamped count is the product with `1 / max(n, 1)`, and every edge of
  query row `q` looks up row `q` of the query table.  Over the reals the plain program's per-edge message is the fused
  program's per-reference value less the query's own position term, so the sums differ by `n` times that term, and
  `n / max(n, 1) = min(n, 1)`.
-/
import proofs.«426789_j68745246539912_1_alg».proof.Proof.Spec

noncomputable section

open scoped BigOperators

namespace Cert.Spec

open Idealize.ShloMosaic Idealize.ShloMosaic.ValueIdx

/-! ## Constants, coercions of sums -/

/-- The pattern `0x3F800000` denotes the real number one. -/
theorem one_eq : one = ((1 : ℝ) : EReal) := by
  simp [one, Ideal.ofBits, Ideal.ieee, -EReal.coe_mul]; norm_num

/-- The coercion of a finite real sum is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_max' (x y : ℝ) : ((max x y : ℝ) : EReal) = max (x : EReal) (y : EReal) :=
  EReal.coe_strictMono.monotone.map_max

theorem coe_min' (x y : ℝ) : ((min x y : ℝ) : EReal) = min (x : EReal) (y : EReal) :=
  EReal.coe_strictMono.monotone.map_min

/-- The count of a query row is the number of its edges. -/
theorem cnt_eq (i4 : Words 1600000) (q : Fin 50000) : cnt i4 q = (((seg i4 q).card : ℝ) : EReal) := by
  rw [cnt, one_eq, ← coe_sum, zero_add, Finset.sum_const, nsmul_eq_mul, mul_one]

/-! ## The index fact -/

/-- A word whose signed value is a row number of the query table looks that row up. -/
theorem rowOf_of_toInt (w : BitVec 32) (q : Fin 50000) (h : w.toInt = (q.val : ℤ)) :
    rowOf 49999 50000#32 w = q := by
  have hs : w.slt 0#32 = false := by
    simp [BitVec.slt, h]
  apply Fin.ext
  have hq := q.isLt
  simp [rowOf, normW, Scalar.select, IntOp.cmpi, hs, h]
  omega

theorem rowQry_of_mem (i4 : Words 1600000) (q : Fin 50000) (e : Fin 1600000) (he : e ∈ seg i4 q) :
    rowQry i4 e = q := by
  rw [seg, Finset.mem_filter] at he
  exact rowOf_of_toInt _ _ he.2

/-! ## The real-valued side -/

/-- Rank-2 and rank-1 arrays of real numbers. -/
abbrev RArr2 (a b : Nat) : Type := (⟨2, ![a, b]⟩ : Shape).Idx → ℝ
abbrev RArr1 (a : Nat) : Type := (⟨1, ![a]⟩ : Shape).Idx → ℝ

/-- A real position row times `W_posᵀ`. -/
def posEmbℝ {n : Nat} (a : RArr2 n 4) (w : RArr2 128 3) (r : Fin n) (c : Fin 128) : ℝ :=
  ∑ k : Fin 3, a (ix2 r (col1 k)) * w (ix2 c k)
/-- A real feature row times `W_mlpᵀ`. -/
def featEmbℝ (a1 : RArr2 100000 128) (v : RArr2 128 128) (r : Fin 100000) (c : Fin 128) : ℝ :=
  ∑ j : Fin 128, a1 (ix2 r j) * v (ix2 c j)

theorem posEmb_coe {n : Nat} (x : Arr2 n 4) (w5 : Arr2 128 3) (a : RArr2 n 4) (w : RArr2 128 3)
    (hx : ∀ i, x i = (a i : EReal)) (hw : ∀ i, w5 i = (w i : EReal)) (r : Fin n) (c : Fin 128) :
    posEmb x w5 r c = (posEmbℝ a w r c : EReal) := by
  simp only [posEmb, posEmbℝ, hx, hw, coe_sum, EReal.coe_mul]

theorem featEmb_coe (x1 : Arr2 100000 128) (w7 : Arr2 128 128) (a1 : RArr2 100000 128) (v : RArr2 128 128)
    (hx : ∀ i, x1 i = (a1 i : EReal)) (hw : ∀ i, w7 i = (v i : EReal)) (r : Fin 100000) (c : Fin 128) :
    featEmb x1 w7 r c = (featEmbℝ a1 v r c : EReal) := by
  simp only [featEmb, featEmbℝ, hx, hw, coe_sum, EReal.coe_mul]

/-- The quotient of a natural number by itself clamped below at one is the number clamped above at one. -/
theorem card_div_max (n : ℕ) : (n : ℝ) * (1 / max (n : ℝ) 1) = min (n : ℝ) 1 := by
  rcases Nat.eq_zero_or_pos n with h | h
  · subst h; simp
  · have h1 : (1 : ℝ) ≤ n := by exact_mod_cast h
    have h0 : (n : ℝ) ≠ 0 := by positivity
    rw [max_eq_left h1, min_eq_right h1, mul_one_div, div_self h0]

/-- The real identity behind the two mean messages: taking the query's own term off each edge, or
    `min(n, 1)` times it off the mean, is the same. -/
theorem mean_identity {ι : Type*} (s : Finset ι) (P F D : ι → ℝ) (B c6 c8 : ℝ)
    (hD : ∀ e ∈ s, D e = P e - B) :
    (∑ e ∈ s, ((D e + c6) + (F e + c8))) * (1 / max (s.card : ℝ) 1)
      = (∑ e ∈ s, (((P e + F e) + c6) + c8)) * (1 / max (s.card : ℝ) 1) - min (s.card : ℝ) 1 * B := by
  have h1 : ∑ e ∈ s, ((D e + c6) + (F e + c8)) = ∑ e ∈ s, (((P e + F e) + c6) + c8) - (s.card : ℝ) * B := by
    rw [eq_sub_iff_add_eq, ← nsmul_eq_mul, ← Finset.sum_const, ← Finset.sum_add_distrib]
    apply Finset.sum_congr rfl
    intro e he
    rw [hD e he]; ring
  rw [h1, ← card_div_max]; ring

/-- A difference of rows through the linear map is the difference of the images. -/
theorem sum_sub_mul (f g h : Fin 3 → ℝ) :
    ∑ k : Fin 3, (f k - g k) * h k = ∑ k : Fin 3, f k * h k - ∑ k : Fin 3, g k * h k := by
  rw [← Finset.sum_sub_distrib]
  apply Finset.sum_congr rfl
  intro k _; ring

theorem max_card_ne_zero (n : ℕ) : max (n : ℝ) 1 ≠ 0 :=
  ne_of_gt (lt_of_lt_of_le one_pos (le_max_right _ _))

/-! ## The two mean messages as coercions of real numbers -/

section Main
variable (x0 : Arr2 100000 4) (x1 : Arr2 100000 128) (x2 : Arr2 50000 4) (i3 i4 : Words 1600000)
  (w5 : Arr2 128 3) (b6 : Arr1 128) (w7 : Arr2 128 128) (b8 : Arr1 128)
variable (a0 : RArr2 100000 4) (a1 : RArr2 100000 128) (a2 : RArr2 50000 4)
  (w : RArr2 128 3) (β6 : RArr1 128) (v : RArr2 128 128) (β8 : RArr1 128)

/-- The fused program's per-reference value, over the reals. -/
def combinedℝ (r : Fin 100000) (c : Fin 128) : ℝ :=
  ((posEmbℝ a0 w r c + featEmbℝ a1 v r c) + β6 (ix1 c)) + β8 (ix1 c)

/-- The plain program's per-edge message for an edge of query row `q`, over the reals. -/
def edgeℝ (q : Fin 50000) (e : Fin 1600000) (c : Fin 128) : ℝ :=
  ((∑ k : Fin 3, (a0 (ix2 (rowRef i3 e) (col1 k)) - a2 (ix2 q (col1 k))) * w (ix2 c k)) + β6 (ix1 c))
    + (featEmbℝ a1 v (rowRef i3 e) c + β8 (ix1 c))

variable (h0 : ∀ i, x0 i = (a0 i : EReal)) (h1 : ∀ i, x1 i = (a1 i : EReal)) (h2 : ∀ i, x2 i = (a2 i : EReal))
  (h5 : ∀ i, w5 i = (w i : EReal)) (h6 : ∀ i, b6 i = (β6 i : EReal)) (h7 : ∀ i, w7 i = (v i : EReal))
  (h8 : ∀ i, b8 i = (β8 i : EReal))
include h0 h1 h5 h6 h7 h8

theorem combinedRef_coe (r : Fin 100000) (c : Fin 128) :
    combinedRef x0 x1 w5 b6 w7 b8 r c = (combinedℝ a0 a1 w β6 v β8 r c : EReal) := by
  simp only [combinedRef, combinedℝ, posEmb_coe x0 w5 a0 w h0 h5, featEmb_coe x1 w7 a1 v h1 h7, h6, h8,
    EReal.coe_add]

include h2

theorem edgeVal_coe (q : Fin 50000) (e : Fin 1600000) (he : e ∈ seg i4 q) (c : Fin 128) :
    edgeVal x0 x1 x2 i3 i4 w5 b6 w7 b8 e c = (edgeℝ i3 a0 a1 a2 w β6 v β8 q e c : EReal) := by
  simp only [edgeVal, posDiffEmb, outFeat, rowQry_of_mem i4 q e he, h0, h2, h5, h6, h8,
    featEmb_coe x1 w7 a1 v h1 h7, edgeℝ, coe_sum, EReal.coe_add, EReal.coe_sub, EReal.coe_mul]

theorem featR_coe (q : Fin 50000) (c : Fin 128) :
    featR x0 x1 x2 i3 i4 w5 b6 w7 b8 q c
      = (((∑ e ∈ seg i4 q, edgeℝ i3 a0 a1 a2 w β6 v β8 q e c) * (1 / max ((seg i4 q).card : ℝ) 1) : ℝ) : EReal) := by
  have hsum : ∑ e ∈ seg i4 q, edgeVal x0 x1 x2 i3 i4 w5 b6 w7 b8 e c
      = ∑ e ∈ seg i4 q, ((edgeℝ i3 a0 a1 a2 w β6 v β8 q e c : ℝ) : EReal) :=
    Finset.sum_congr rfl fun e he =>
      edgeVal_coe x0 x1 x2 i3 i4 w5 b6 w7 b8 a0 a1 a2 w β6 v β8 h0 h1 h2 h5 h6 h7 h8 q e he c
  rw [featR, segSumR, cnt_eq, one_eq, ← coe_max', Ideal.div_coe (max_card_ne_zero _), zero_add, hsum,
    ← coe_sum, ← EReal.coe_mul]

theorem featK_coe (q : Fin 50000) (c : Fin 128) :
    featK x0 x1 x2 i3 i4 w5 b6 w7 b8 q c
      = (((∑ e ∈ seg i4 q, combinedℝ a0 a1 w β6 v β8 (rowRef i3 e) c) * (1 / max ((seg i4 q).card : ℝ) 1)
          - min ((seg i4 q).card : ℝ) 1 * posEmbℝ a2 w q c : ℝ) : EReal) := by
  have hsum : ∑ e ∈ seg i4 q, combinedRef x0 x1 w5 b6 w7 b8 (rowRef i3 e) c
      = ∑ e ∈ seg i4 q, ((combinedℝ a0 a1 w β6 v β8 (rowRef i3 e) c : ℝ) : EReal) :=
    Finset.sum_congr rfl fun e _ =>
      combinedRef_coe x0 x1 w5 b6 w7 b8 a0 a1 w β6 v β8 h0 h1 h5 h6 h7 h8 (rowRef i3 e) c
  rw [featK, segSumK, cnt_eq, one_eq, ← coe_max', ← coe_min', Ideal.div_coe (max_card_ne_zero _), zero_add, hsum,
    posEmb_coe x2 w5 a2 w h2 h5, ← coe_sum, ← EReal.coe_mul, ← EReal.coe_mul, ← EReal.coe_sub]

theorem featK_eq_featR_of_coe (q : Fin 50000) (c : Fin 128) :
    featK x0 x1 x2 i3 i4 w5 b6 w7 b8 q c = featR x0 x1 x2 i3 i4 w5 b6 w7 b8 q c := by
  rw [featK_coe x0 x1 x2 i3 i4 w5 b6 w7 b8 a0 a1 a2 w β6 v β8 h0 h1 h2 h5 h6 h7 h8,
    featR_coe x0 x1 x2 i3 i4 w5 b6 w7 b8 a0 a1 a2 w β6 v β8 h0 h1 h2 h5 h6 h7 h8, EReal.coe_eq_coe_iff]
  symm
  exact mean_identity (seg i4 q) (fun e => posEmbℝ a0 w (rowRef i3 e) c) (fun e => featEmbℝ a1 v (rowRef i3 e) c)
    (fun e => ∑ k : Fin 3, (a0 (ix2 (rowRef i3 e) (col1 k)) - a2 (ix2 q (col1 k))) * w (ix2 c k))
    (posEmbℝ a2 w q c) (β6 (ix1 c)) (β8 (ix1 c)) (fun e _ => sum_sub_mul _ _ _)

end Main

variable (x0 : Arr2 100000 4) (x1 : Arr2 100000 128) (x2 : Arr2 50000 4) (i3 i4 : Words 1600000)
  (w5 : Arr2 128 3) (b6 : Arr1 128) (w7 : Arr2 128 128) (b8 : Arr1 128)

/-- The plain program's mean message is a real number. -/
theorem featR_real (h0 : Real2 x0) (h1 : Real2 x1) (h2 : Real2 x2) (h5 : Real2 w5) (h6 : Real1 b6) (h7 : Real2 w7)
    (h8 : Real1 b8) (q : Fin 50000) (c : Fin 128) :
    ∃ r : ℝ, featR x0 x1 x2 i3 i4 w5 b6 w7 b8 q c = (r : EReal) := by
  choose a0 ha0 using h0
  choose a1 ha1 using h1
  choose a2 ha2 using h2
  choose w hw using h5
  choose β6 hβ6 using h6
  choose v hv using h7
  choose β8 hβ8 using h8
  exact ⟨_, featR_coe x0 x1 x2 i3 i4 w5 b6 w7 b8 a0 a1 a2 w β6 v β8 ha0 ha1 ha2 hw hβ6 hv hβ8 q c⟩

/-- The fused program's mean message is the plain program's. -/
theorem featK_eq_featR (h0 : Real2 x0) (h1 : Real2 x1) (h2 : Real2 x2) (h5 : Real2 w5) (h6 : Real1 b6) (h7 : Real2 w7)
    (h8 : Real1 b8) (q : Fin 50000) (c : Fin 128) :
    featK x0 x1 x2 i3 i4 w5 b6 w7 b8 q c = featR x0 x1 x2 i3 i4 w5 b6 w7 b8 q c := by
  choose a0 ha0 using h0
  choose a1 ha1 using h1
  choose a2 ha2 using h2
  choose w hw using h5
  choose β6 hβ6 using h6
  choose v hv using h7
  choose β8 hβ8 using h8
  exact featK_eq_featR_of_coe x0 x1 x2 i3 i4 w5 b6 w7 b8 a0 a1 a2 w β6 v β8 ha0 ha1 ha2 hw hβ6 hv hβ8 q c

end Cert.Spec

end
-- ==== Proof.Algebra2.lean ====
/-
  The normalisation: with one real-valued message array on both sides, the fused program's column statistics
  (mean of squares minus squared mean) and the plain program's (mean of squared deviations) give one result.
-/
import proofs.«426789_j68745246539912_1_alg».proof.Proof.Spec

noncomputable section

open scoped BigOperators

namespace Cert.Spec

open Idealize.ShloMosaic Idealize.ShloMosaic.ValueIdx

namespace Norm

/-- The row count the programs spell is the real number `50000`: sign `0`, exponent `142`, significand
    `2^23 + 0x435000`, so `(2^23 + 4411392) · 2^(142 - 127 - 23) = 50000`. -/
theorem cntM_eq : cntM = ((50000 : ℝ) : EReal) := by
  show Ideal.ieee 8 23 (0x47435000#32 : BitVec 32) = _
  delta Ideal.ieee
  simp [-EReal.coe_mul]; norm_num

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Mean of squares minus squared mean is the mean of squared deviations, the divisions written as products
    with the reciprocal of the number of terms. -/
theorem var_identity {ι : Type*} [Fintype ι] (f : ι → ℝ) (M : ℝ) (hM : M = Fintype.card ι) (h0 : M ≠ 0) :
    (∑ q, f q * f q) * (1 / M) - ((∑ q, f q) * (1 / M)) * ((∑ q, f q) * (1 / M))
      = (∑ q, (f q - (∑ p, f p) * (1 / M)) * (f q - (∑ p, f p) * (1 / M))) * (1 / M) := by
  set μ := (∑ p, f p) * (1 / M) with hμ
  have hexp : ∑ q, (f q - μ) * (f q - μ) = ∑ q, f q * f q - 2 * μ * ∑ q, f q + M * (μ * μ) := by
    have h1 : ∀ q, (f q - μ) * (f q - μ) = f q * f q - 2 * μ * f q + μ * μ := fun q => by ring
    simp only [h1, Finset.sum_add_distrib, Finset.sum_sub_distrib, ← Finset.mul_sum, Finset.sum_const,
      Finset.card_univ, nsmul_eq_mul, hM]
    ring
  rw [hexp, hμ]
  field_simp
  ring

end Norm

/-- Both normalisations of equal real-valued message arrays agree at every entry. -/
theorem out_eq_of_feat (fk fr : Fin 50000 → Fin 128 → EReal) (g9 b10 : Arr1 128)
    (hfeat : ∀ q c, fk q c = fr q c) (hreal : ∀ q c, ∃ r : ℝ, fr q c = (r : EReal)) (q : Fin 50000) (c : Fin 128) :
    max ((((fk q c - Ideal.div (∑ p : Fin 50000, fk p c) cntM)
          * Ideal.rsqrt ((Ideal.div (∑ p : Fin 50000, fk p c * fk p c) cntM
              - Ideal.div (∑ p : Fin 50000, fk p c) cntM * Ideal.div (∑ p : Fin 50000, fk p c) cntM) + eps))
        * g9 (ix1 c)) + b10 (ix1 c)) 0
      = max ((((fr q c - Ideal.div (0 + ∑ p : Fin 50000, fr p c) cntM)
          * Ideal.rsqrt (Ideal.div (0 + ∑ p : Fin 50000,
                (fr p c - Ideal.div (0 + ∑ p : Fin 50000, fr p c) cntM)
                  * (fr p c - Ideal.div (0 + ∑ p : Fin 50000, fr p c) cntM)) cntM + eps))
        * g9 (ix1 c)) + b10 (ix1 c)) 0 := by
  choose f hf using fun p => hreal p c
  have hk : ∀ p, fk p c = (f p : EReal) := fun p => (hfeat p c).trans (hf p)
  have hM : (50000 : ℝ) ≠ 0 := by norm_num
  have hcard : (50000 : ℝ) = Fintype.card (Fin 50000) := by simp
  simp only [hk, hf, zero_add, Norm.cntM_eq, Ideal.div_coe hM, ← EReal.coe_mul, ← Norm.coe_sum, ← EReal.coe_sub]
  rw [Norm.var_identity f 50000 hcard hM]

end Cert.Spec

end
-- ==== Proof.Algebra.lean ====
/-
  The fused program's result is the plain program's, entry by entry, when the float arguments are real numbers.
-/
import proofs.«426789_j68745246539912_1_alg».proof.Proof.Algebra1
import proofs.«426789_j68745246539912_1_alg».proof.Proof.Algebra2

noncomputable section

open scoped BigOperators

namespace Cert.Spec

open Idealize.ShloMosaic Idealize.ShloMosaic.ValueIdx

theorem outK_eq_outR (x0 : Arr2 100000 4) (x1 : Arr2 100000 128) (x2 : Arr2 50000 4) (i3 i4 : Words 1600000)
    (w5 : Arr2 128 3) (b6 : Arr1 128) (w7 : Arr2 128 128) (b8 : Arr1 128) (g9 b10 : Arr1 128)
    (h0 : Real2 x0) (h1 : Real2 x1) (h2 : Real2 x2) (h5 : Real2 w5) (h6 : Real1 b6) (h7 : Real2 w7)
    (h8 : Real1 b8) (q : Fin 50000) (c : Fin 128) :
    outK x0 x1 x2 i3 i4 w5 b6 w7 b8 g9 b10 q c = outR x0 x1 x2 i3 i4 w5 b6 w7 b8 g9 b10 q c :=
  out_eq_of_feat (featK x0 x1 x2 i3 i4 w5 b6 w7 b8) (featR x0 x1 x2 i3 i4 w5 b6 w7 b8) g9 b10
    (featK_eq_featR x0 x1 x2 i3 i4 w5 b6 w7 b8 h0 h1 h2 h5 h6 h7 h8)
    (featR_real x0 x1 x2 i3 i4 w5 b6 w7 b8 h0 h1 h2 h5 h6 h7 h8) q c

end Cert.Spec

end
-- ==== Proof.lean ====
/-
  The certificate of the point-convolution message passing kernel against its plain reference.

  Both programs take `N = 100000` reference points (a 4-column position row whose columns 1..3 are coordinates, and a
  128-column feature row), `M = 50000` query points, `E = 1600000` edges given by two index arrays, two linear maps with
  biases, and a scale and shift row.  The plain program forms per edge `(ref_pos − query_pos)·W_posᵀ + b_pos` plus the
  looked-up `feat·W_mlpᵀ + b_mlp`, sums the edges of each query, divides by the clamped count, and normalises each of the 128
  columns by its mean and its mean squared deviation over the queries.  The fused program uses that the per-edge message is
  linear: it forms `pos·W_posᵀ + feat·W_mlpᵀ + b_pos + b_mlp` once per reference point, sums the looked-up rows per query,
  divides, and takes `min(count, 1)` times the query's own `pos·W_posᵀ` off; its variance is the mean of squares minus the
  squared mean.  Over the real numbers the two are one function: an edge summed into query row `q` looks up query row `q`;
  `count / max(count, 1) = min(count, 1)` for a natural count; and the two variance formulas agree.  Finiteness of the
  float inputs (the precondition) is what makes every entry a real number, where sums distribute over products.

  The three frames are the generated ones (the reference's from its generated run); no operation was rewritten by the
  idealisation, so nothing is to be preserved.
-/
import proofs.«426789_j68745246539912_1_alg».proof.Defs
import proofs.«426789_j68745246539912_1_alg».proof.Proof.Gen.Kernel
import proofs.«426789_j68745246539912_1_alg».proof.Proof.Gen.Kernel.Frame
import proofs.«426789_j68745246539912_1_alg».proof.Proof.Gen.KernelIdeal
import proofs.«426789_j68745246539912_1_alg».proof.Proof.Gen.KernelIdeal.Frame
import proofs.«426789_j68745246539912_1_alg».proof.Proof.Gen.ReferenceIdeal
import proofs.«426789_j68745246539912_1_alg».proof.Proof.Gen.Pre_finite_inputs
import proofs.«426789_j68745246539912_1_alg».proof.Proof.Gen.ReferenceIdeal.Run
import proofs.«426789_j68745246539912_1_alg».proof.Proof.KValue
import proofs.«426789_j68745246539912_1_alg».proof.Proof.Ref
import proofs.«426789_j68745246539912_1_alg».proof.Proof.Finite
import proofs.«426789_j68745246539912_1_alg».proof.Proof.Algebra
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two idealised programs, run from memories that agree on the arguments, end with equal results: the fused program's
    result array is `Spec.outK` of the arguments, the plain program's is `Spec.outR` of the same arguments, and for real-valued
    float arguments (the precondition) the two functions agree at every entry. -/
theorem algebraic : Cert.algebraic_KernelIdeal_ReferenceIdeal := by
  intro m ρ m' ρ' hpre hagree
  refine ⟨Cert.KernelIdeal.Result.out m, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  obtain ⟨r0, r1, r2, r5, r6, r7, r8⟩ := Cert.FiniteInputs.real_of_fn _ _ _ _ _ _ _ _ _ _ _ (hpre c)
  rw [Cert.ReferenceIdeal.RefValue.res_eq m' c,
    show Cert.ReferenceIdeal.RefValue.x0 m' c = Cert.KernelIdeal.Chain.x0 m c from e0,
    show Cert.ReferenceIdeal.RefValue.x1 m' c = Cert.KernelIdeal.Chain.x1 m c from e1,
    show Cert.ReferenceIdeal.RefValue.x2 m' c = Cert.KernelIdeal.Chain.x2 m c from e2,
    show Cert.ReferenceIdeal.RefValue.i3 m' c = Cert.KernelIdeal.Chain.i3 m c from e3,
    show Cert.ReferenceIdeal.RefValue.i4 m' c = Cert.KernelIdeal.Chain.i4 m c from e4,
    show Cert.ReferenceIdeal.RefValue.w5 m' c = Cert.KernelIdeal.Chain.w5 m c from e5,
    show Cert.ReferenceIdeal.RefValue.b6 m' c = Cert.KernelIdeal.Chain.b6 m c from e6,
    show Cert.ReferenceIdeal.RefValue.w7 m' c = Cert.KernelIdeal.Chain.w7 m c from e7,
    show Cert.ReferenceIdeal.RefValue.b8 m' c = Cert.KernelIdeal.Chain.b8 m c from e8,
    show Cert.ReferenceIdeal.RefValue.g9 m' c = Cert.KernelIdeal.Chain.g9 m c from e9,
    show Cert.ReferenceIdeal.RefValue.b10 m' c = Cert.KernelIdeal.Chain.b10 m c from e10]
  funext i
  exact (Cert.Spec.outK_eq_outR _ _ _ _ _ _ _ _ _ _ _ r0 r1 r2 r5 r6 r7 r8 (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
